-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008x64 : Shape := ⟨2, ![11008, 64]⟩
abbrev S4096x11008 : Shape := ⟨2, ![4096, 11008]⟩
abbrev S4096x172 : Shape := ⟨2, ![4096, 172]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x64 : S_.BroadcastsInDim S11008x64 (![] : Fin 0 → Fin S11008x64.rank)
  reducesTo_S11008x64_S_d0_1 : S11008x64.ReducesTo [0, 1] S_
  bcast_S_S4096x172 : S_.BroadcastsInDim S4096x172 (![] : Fin 0 → Fin S4096x172.rank)
  reducesTo_S4096x172_S_d0_1 : S4096x172.ReducesTo [0, 1] S_
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part2 {F : FTy → Type} [FloatOps F] (main_arg5 : IVec S11008x4096 32) (main_v32 : IVec S_ 1) (main_c_12 : IVec S_ 32) : IVec S_ 1 :=
  let main_v33 : IVec S11008x4096 32 := broadcastInDim S11008x4096 ![] bcast_S_S11008x4096 main_c_12
  let main_v34 : IVec S11008x4096 1 := cmpi .sge main_arg5 main_v33
  let main_c_13 : IVec S_ 32 := constantI S_ 32 16#32
  let main_v35 : IVec S11008x4096 32 := broadcastInDim S11008x4096 ![] bcast_S_S11008x4096 main_c_13
  let main_v36 : IVec S11008x4096 1 := cmpi .slt main_arg5 main_v35
  let main_v37 : IVec S11008x4096 1 := andi main_v34 main_v36
  let main_c_14 : IVec S_ 1 := constantI S_ 1 1#1
  let main_v38 : IVec S_ 1 := (fun x v => Host.reduce IntOp.andi x v reducesTo_S11008x4096_S_d0_1 h_S_) main_v37 main_c_14
  let main_v39 : IVec S_ 1 := andi main_v32 main_v38
  main_v39

def fn_part1 {F : FTy → Type} [FloatOps F] (main_arg1 : IVec S11008x4096 32) (main_arg3 : IVec S4096x11008 32) (main_arg5 : IVec S11008x4096 32) (main_v13 : IVec S_ 1) (main_v16 : IVec S11008x64 1) : IVec S_ 1 :=
  let main_c_5 : IVec S_ 1 := constantI S_ 1 1#1
  let main_v17 : IVec S_ 1 := (fun x v => Host.reduce IntOp.andi x v reducesTo_S11008x64_S_d0_1 h_S_) main_v16 main_c_5
  let main_v18 : IVec S_ 1 := andi main_v13 main_v17
  let main_c_6 : IVec S_ 32 := constantI S_ 32 0#32
  let main_v19 : IVec S11008x4096 32 := broadcastInDim S11008x4096 ![] bcast_S_S11008x4096 main_c_6
  let main_v20 : IVec S11008x4096 1 := cmpi .sge main_arg1 main_v19
  let main_c_7 : IVec S_ 32 := constantI S_ 32 16#32
  let main_v21 : IVec S11008x4096 32 := broadcastInDim S11008x4096 ![] bcast_S_S11008x4096 main_c_7
  let main_v22 : IVec S11008x4096 1 := cmpi .slt main_arg1 main_v21
  let main_v23 : IVec S11008x4096 1 := andi main_v20 main_v22
  let main_c_8 : IVec S_ 1 := constantI S_ 1 1#1
  let main_v24 : IVec S_ 1 := (fun x v => Host.reduce IntOp.andi x v reducesTo_S11008x4096_S_d0_1 h_S_) main_v23 main_c_8
  let main_v25 : IVec S_ 1 := andi main_v18 main_v24
  let main_c_9 : IVec S_ 32 := constantI S_ 32 0#32
  let main_v26 : IVec S4096x11008 32 := broadcastInDim S4096x11008 ![] bcast_S_S4096x11008 main_c_9
  let main_v27 : IVec S4096x11008 1 := cmpi .sge main_arg3 main_v26
  let main_c_10 : IVec S_ 32 := constantI S_ 32 16#32
  let main_v28 : IVec S4096x11008 32 := broadcastInDim S4096x11008 ![] bcast_S_S4096x11008 main_c_10
  let main_v29 : IVec S4096x11008 1 := cmpi .slt main_arg3 main_v28
  let main_v30 : IVec S4096x11008 1 := andi main_v27 main_v29
  let main_c_11 : IVec S_ 1 := constantI S_ 1 1#1
  let main_v31 : IVec S_ 1 := (fun x v => Host.reduce IntOp.andi x v reducesTo_S4096x11008_S_d0_1 h_S_) main_v30 main_c_11
  let main_v32 : IVec S_ 1 := andi main_v25 main_v31
  let main_c_12 : IVec S_ 32 := constantI S_ 32 0#32
  fn_part2 (F := F) main_arg5 main_v32 main_c_12

def fn {F : FTy → Type} [FloatOps F] (main_arg0 : FVec F S2x2048x4096 .f32) (main_arg1 : IVec S11008x4096 32) (main_arg2 : FVec F S11008x64 .f32) (main_arg3 : IVec S4096x11008 32) (main_arg4 : FVec F S4096x172 .f32) (main_arg5 : IVec S11008x4096 32) (main_arg6 : FVec F S11008x64 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x64 .f32 := Host.absf main_arg2
  let main_cst_0 : FVec F S_ .f32 := constant S_ .f32 0x7F800000#32
  let main_v5 : FVec F S11008x64 .f32 := broadcastInDim S11008x64 ![] bcast_S_S11008x64 main_cst_0
  let main_v6 : IVec S11008x64 1 := cmpf .olt main_v4 main_v5
  let main_c_1 : IVec S_ 1 := constantI S_ 1 1#1
  let main_v7 : IVec S_ 1 := (fun x v => Host.reduce IntOp.andi x v reducesTo_S11008x64_S_d0_1 h_S_) main_v6 main_c_1
  let main_v8 : IVec S_ 1 := andi main_v3 main_v7
  let main_v9 : FVec F S4096x172 .f32 := Host.absf main_arg4
  let main_cst_2 : FVec F S_ .f32 := constant S_ .f32 0x7F800000#32
  let main_v10 : FVec F S4096x172 .f32 := broadcastInDim S4096x172 ![] bcast_S_S4096x172 main_cst_2
  let main_v11 : IVec S4096x172 1 := cmpf .olt main_v9 main_v10
  let main_c_3 : IVec S_ 1 := constantI S_ 1 1#1
  let main_v12 : IVec S_ 1 := (fun x v => Host.reduce IntOp.andi x v reducesTo_S4096x172_S_d0_1 h_S_) main_v11 main_c_3
  let main_v13 : IVec S_ 1 := andi main_v8 main_v12
  let main_v14 : FVec F S11008x64 .f32 := Host.absf main_arg6
  let main_cst_4 : FVec F S_ .f32 := constant S_ .f32 0x7F800000#32
  let main_v15 : FVec F S11008x64 .f32 := broadcastInDim S11008x64 ![] bcast_S_S11008x64 main_cst_4
  let main_v16 : IVec S11008x64 1 := cmpf .olt main_v14 main_v15
  fn_part1 (F := F) main_arg1 main_arg3 main_arg5 main_v13 main_v16
-- ==== Kernel.lean ====
abbrev S2x2048x4096 : Shape := ⟨3, ![2, 2048, 4096]⟩
abbrev S11008x4096 : Shape := ⟨2, ![11008, 4096]⟩
abbrev S11008x64 : Shape := ⟨2, ![11008, 64]⟩
abbrev S4096x11008 : Shape := ⟨2, ![4096, 11008]⟩
abbrev S4096x172 : Shape := ⟨2, ![4096, 172]⟩
abbrev S4096x4096 : Shape := ⟨2, ![4096, 4096]⟩
abbrev S512x4096 : Shape := ⟨2, ![512, 4096]⟩
abbrev S256x4096 : Shape := ⟨2, ![256, 4096]⟩
abbrev S256x64 : Shape := ⟨2, ![256, 64]⟩
abbrev S512x256 : Shape := ⟨2, ![512, 256]⟩
abbrev S256x64x1 : Shape := ⟨3, ![256, 64, 1]⟩
abbrev S256x64x64 : Shape := ⟨3, ![256, 64, 64]⟩
abbrev S256x11008 : Shape := ⟨2, ![256, 11008]⟩
abbrev S128x11008 : Shape := ⟨2, ![128, 11008]⟩
abbrev S128x172 : Shape := ⟨2, ![128, 172]⟩
abbrev S256x128 : Shape := ⟨2, ![256, 128]⟩
abbrev S128x172x1 : Shape := ⟨3, ![128, 172, 1]⟩
abbrev S128x172x64 : Shape := ⟨3, ![128, 172, 64]⟩

abbrev nBuf : Space → Nat
  | .hbm => 12
  | .vmem => 20
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .i32⟩
  | .hbm, ⟨2, _⟩ => ⟨S11008x64, .f32⟩
  | .hbm, ⟨3, _⟩ => ⟨S4096x11008, .i32⟩
  | .hbm, ⟨4, _⟩ => ⟨S4096x172, .f32⟩
  | .hbm, ⟨5, _⟩ => ⟨S11008x4096, .i32⟩
  | .hbm, ⟨6, _⟩ => ⟨S11008x64, .f32⟩
  | .hbm, ⟨7, _⟩ => ⟨S4096x4096, .f32⟩
  | .hbm, ⟨8, _⟩ => ⟨S4096x4096, .bf16⟩
  | .hbm, ⟨9, _⟩ => ⟨S4096x11008, .bf16⟩
  | .hbm, ⟨10, _⟩ => ⟨S4096x4096, .f32⟩
  | .hbm, ⟨11, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .i32⟩
  | .local _ .vmem, ⟨3, _⟩ => ⟨S256x4096, .i32⟩
  | .local _ .vmem, ⟨4, _⟩ => ⟨S256x64, .f32⟩
  | .local _ .vmem, ⟨5, _⟩ => ⟨S256x64, .f32⟩
  | .local _ .vmem, ⟨6, _⟩ => ⟨S256x4096, .i32⟩
  | .local _ .vmem, ⟨7, _⟩ => ⟨S256x4096, .i32⟩
  | .local _ .vmem, ⟨8, _⟩ => ⟨S256x64, .f32⟩
  | .local _ .vmem, ⟨9, _⟩ => ⟨S256x64, .f32⟩
  | .local _ .vmem, ⟨10, _⟩ => ⟨S512x256, .bf16⟩
  | .local _ .vmem, ⟨11, _⟩ => ⟨S512x256, .bf16⟩
  | .local _ .vmem, ⟨12, _⟩ => ⟨S256x11008, .bf16⟩
  | .local _ .vmem, ⟨13, _⟩ => ⟨S256x11008, .bf16⟩
  | .local _ .vmem, ⟨14, _⟩ => ⟨S128x11008, .i32⟩
  | .local _ .vmem, ⟨15, _⟩ => ⟨S128x11008, .i32⟩
  | .local _ .vmem, ⟨16, _⟩ => ⟨S128x172, .f32⟩
  | .local _ .vmem, ⟨17, _⟩ => ⟨S128x172, .f32⟩
  | .local _ .vmem, ⟨18, _⟩ => ⟨S256x128, .f32⟩
  | .local _ .vmem, ⟨19, _⟩ => ⟨S256x128, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x11008 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x172 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x2048x4096_S4096x4096 : S2x2048x4096.ShapeCasts S4096x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S128x11008_S128x11008_0_0 : ∀ a, (![0, 0] : Fin 2 → Nat) a + S128x11008.size a ≤ S128x11008.size a
  h_S128x11008 : 0 < S128x11008.numel
  inb_S128x172_S128x172_0_0 : ∀ a, (![0, 0] : Fin 2 → Nat) a + S128x172.size a ≤ S128x172.size a
  h_S128x172 : 0 < S128x172.numel
  shapeCasts_S128x172_S128x172x1 : S128x172.ShapeCasts S128x172x1
  shapeCasts_S128x172x1_S128x172x1 : S128x172x1.ShapeCasts S128x172x1
  broadcasts_S128x172x1_S128x172x64 : S128x172x1.Broadcasts S128x172x64
  shapeCasts_S128x172x64_S128x11008 : S128x172x64.ShapeCasts S128x11008
  inb_S256x128_S256x128_0_0 : ∀ a, (![0, 0] : Fin 2 → Nat) a + S256x128.size a ≤ S256x128.size a
  h_S256x128 : 0 < S256x128.numel
  shapeCasts_S4096x4096_S2x2048x4096 : S4096x4096.ShapeCasts S2x2048x4096
  dot_S512x4096_S256x4096_S512x256_1_1_0_0_n_n_wf : DotDims.WF S512x4096 S256x4096 S512x256 [1] [1] [0] [0] [] []
  dot_S256x11008_S128x11008_S256x128_1_1_0_0_n_n_wf : DotDims.WF S256x11008 S128x11008 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S11008x64.size a
  hwx0_2 : ∀ i : grid0.Coords, EltTy.bits .f32 = 32 ∨ (Rect.block (s := S11008x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .i32 = 32 ∨ (Rect.block (s := S11008x4096) S256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S11008x64.size a
  hwx0_4 : ∀ i : grid0.Coords, EltTy.bits .f32 = 32 ∨ (Rect.block (s := S11008x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x11008.size a
  hwx0_5 : ∀ i : grid0.Coords, EltTy.bits .bf16 = 32 ∨ (Rect.block (s := S4096x11008) S512x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x11008.size a ≤ S4096x11008.size a
  hwx1_0 : ∀ i : grid1.Coords, EltTy.bits .bf16 = 32 ∨ (Rect.block (s := S4096x11008) S256x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x11008.size a ≤ S4096x11008.size a
  hwx1_1 : ∀ i : grid1.Coords, EltTy.bits .i32 = 32 ∨ (Rect.block (s := S4096x11008) S128x11008.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x172.size a ≤ S4096x172.size a
  hwx1_2 : ∀ i : grid1.Coords, EltTy.bits .f32 = 32 ∨ (Rect.block (s := S4096x172) S128x172.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x4096.size a
  hwx1_3 : ∀ i : grid1.Coords, EltTy.bits .f32 = 32 ∨ (Rect.block (s := S4096x4096) S256x128.size (cc1_transform_3 i) (hinb1_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S256x11008_S128x11008_S256x128_1_1_0_0_n_n : DotDims S256x11008 S128x11008 S256x128 where
  lhsContracting := [1]
  rhsContracting := [1]
  lhsNonContracting := [0]
  rhsNonContracting := [0]
  lhsBatch := []
  rhsBatch := []
  wf := dot_S256x11008_S128x11008_S256x128_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S256x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x172.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008x64 : Shape := ⟨2, ![11008, 64]⟩
abbrev S4096x11008 : Shape := ⟨2, ![4096, 11008]⟩
abbrev S4096x172 : Shape := ⟨2, ![4096, 172]⟩
abbrev S16 : Shape := ⟨1, ![16]⟩
abbrev S_ : Shape := ⟨0, ![]⟩
abbrev S11008x4096x1 : Shape := ⟨3, ![11008, 4096, 1]⟩
abbrev S11008x64x64 : Shape := ⟨3, ![11008, 64, 64]⟩
abbrev S11008x64x1 : Shape := ⟨3, ![11008, 64, 1]⟩
abbrev S4096x11008x1 : Shape := ⟨3, ![4096, 11008, 1]⟩
abbrev S4096x172x64 : Shape := ⟨3, ![4096, 172, 64]⟩
abbrev S4096x172x1 : Shape := ⟨3, ![4096, 172, 1]⟩
abbrev S2x2048x11008 : Shape := ⟨3, ![2, 2048, 11008]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .i32⟩
  | .hbm, ⟨2, _⟩ => ⟨S11008x64, .f32⟩
  | .hbm, ⟨3, _⟩ => ⟨S4096x11008, .i32⟩
  | .hbm, ⟨4, _⟩ => ⟨S4096x172, .f32⟩
  | .hbm, ⟨5, _⟩ => ⟨S11008x4096, .i32⟩
  | .hbm, ⟨6, _⟩ => ⟨S11008x64, .f32⟩
  | .hbm, ⟨7, _⟩ => ⟨S16, .f32⟩
  | .hbm, ⟨8, _⟩ => ⟨S_, .i32⟩
  | .hbm, ⟨9, _⟩ => ⟨S11008x4096, .i32⟩
  | .hbm, ⟨10, _⟩ => ⟨S11008x4096, .i1⟩
  | .hbm, ⟨11, _⟩ => ⟨S_, .i32⟩
  | .hbm, ⟨12, _⟩ => ⟨S11008x4096, .i32⟩
  | .hbm, ⟨13, _⟩ => ⟨S11008x4096, .i32⟩
  | .hbm, ⟨14, _⟩ => ⟨S11008x4096, .i32⟩
  | .hbm, ⟨15, _⟩ => ⟨S11008x4096x1, .i32⟩
  | .hbm, ⟨16, _⟩ => ⟨S11008x4096, .f32⟩
  | .hbm, ⟨17, _⟩ => ⟨S11008x64x64, .f32⟩
  | .hbm, ⟨18, _⟩ => ⟨S11008x64x1, .f32⟩
  | .hbm, ⟨19, _⟩ => ⟨S11008x64x64, .f32⟩
  | .hbm, ⟨20, _⟩ => ⟨S11008x64x64, .f32⟩
  | .hbm, ⟨21, _⟩ => ⟨S11008x4096, .f32⟩
  | .hbm, ⟨22, _⟩ => ⟨S_, .i32⟩
  | .hbm, ⟨23, _⟩ => ⟨S11008x4096, .i32⟩
  | .hbm, ⟨24, _⟩ => ⟨S11008x4096, .i1⟩
  | .hbm, ⟨25, _⟩ => ⟨S_, .i32⟩
  | .hbm, ⟨26, _⟩ => ⟨S11008x4096, .i32⟩
  | .hbm, ⟨27, _⟩ => ⟨S11008x4096, .i32⟩
  | .hbm, ⟨28, _⟩ => ⟨S11008x4096, .i32⟩
  | .hbm, ⟨29, _⟩ => ⟨S11008x4096x1, .i32⟩
  | .hbm, ⟨30, _⟩ => ⟨S11008x4096, .f32⟩
  | .hbm, ⟨31, _⟩ => ⟨S11008x64x64, .f32⟩
  | .hbm, ⟨32, _⟩ => ⟨S11008x64x1, .f32⟩
  | .hbm, ⟨33, _⟩ => ⟨S11008x64x64, .f32⟩
  | .hbm, ⟨34, _⟩ => ⟨S11008x64x64, .f32⟩
  | .hbm, ⟨35, _⟩ => ⟨S11008x4096, .f32⟩
  | .hbm, ⟨36, _⟩ => ⟨S_, .i32⟩
  | .hbm, ⟨37, _⟩ => ⟨S4096x11008, .i32⟩
  | .hbm, ⟨38, _⟩ => ⟨S4096x11008, .i1⟩
  | .hbm, ⟨39, _⟩ => ⟨S_, .i32⟩
  | .hbm, ⟨40, _⟩ => ⟨S4096x11008, .i32⟩
  | .hbm, ⟨41, _⟩ => ⟨S4096x11008, .i32⟩
  | .hbm, ⟨42, _⟩ => ⟨S4096x11008, .i32⟩
  | .hbm, ⟨43, _⟩ => ⟨S4096x11008x1, .i32⟩
  | .hbm, ⟨44, _⟩ => ⟨S4096x11008, .f32⟩
  | .hbm, ⟨45, _⟩ => ⟨S4096x172x64, .f32⟩
  | .hbm, ⟨46, _⟩ => ⟨S4096x172x1, .f32⟩
  | .hbm, ⟨47, _⟩ => ⟨S4096x172x64, .f32⟩
  | .hbm, ⟨48, _⟩ => ⟨S4096x172x64, .f32⟩
  | .hbm, ⟨49, _⟩ => ⟨S4096x11008, .f32⟩
  | .hbm, ⟨50, _⟩ => ⟨S2x2048x11008, .f32⟩
  | .hbm, ⟨51, _⟩ => ⟨S2x2048x11008, .f32⟩
  | .hbm, ⟨52, _⟩ => ⟨S2x2048x11008, .f32⟩
  | .hbm, ⟨53, _⟩ => ⟨S_, .f32⟩
  | .hbm, ⟨54, _⟩ => ⟨S2x2048x11008, .f32⟩
  | .hbm, ⟨55, _⟩ => ⟨S2x2048x11008, .f32⟩
  | .hbm, ⟨56, _⟩ => ⟨S_, .f32⟩
  | .hbm, ⟨57, _⟩ => ⟨S2x2048x11008, .f32⟩
  | .hbm, ⟨58, _⟩ => ⟨S2x2048x11008, .f32⟩
  | .hbm, ⟨59, _⟩ => ⟨S2x2048x11008, .f32⟩
  | .hbm, ⟨60, _⟩ => ⟨S2x2048x11008, .f32⟩
  | .hbm, ⟨61, _⟩ => ⟨S2x2048x11008, .f32⟩
  | .hbm, ⟨62, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S11008x4096_S11008x64x64 : S11008x4096.ShapeCasts S11008x64x64
  bcast_S11008x64_S11008x64x1_0_1 : S11008x64.BroadcastsInDim S11008x64x1 (![0, 1] : Fin 2 → Fin S11008x64x1.rank)
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  bcast_S_S4096x11008 : S_.BroadcastsInDim S4096x11008 (![] : Fin 0 → Fin S4096x11008.rank)
  bcast_S4096x11008_S4096x11008x1_0_1 : S4096x11008.BroadcastsInDim S4096x11008x1 (![0, 1] : Fin 2 → Fin S4096x11008x1.rank)
  shapeCasts_S4096x11008_S4096x172x64 : S4096x11008.ShapeCasts S4096x172x64
  bcast_S4096x172_S4096x172x1_0_1 : S4096x172.BroadcastsInDim S4096x172x1 (![0, 1] : Fin 2 → Fin S4096x172x1.rank)
  bcast_S4096x172x1_S4096x172x64_0_1_2 : S4096x172x1.BroadcastsInDim S4096x172x64 (![0, 1, 2] : Fin 3 → Fin S4096x172x64.rank)
  shapeCasts_S4096x172x64_S4096x11008 : S4096x172x64.ShapeCasts S4096x11008
  bcast_S_S2x2048x11008 : S_.BroadcastsInDim S2x2048x11008 (![] : Fin 0 → Fin S2x2048x11008.rank)
  gather_S16_S11008x4096x1_S11008x4096_n_0_n_n_0_2_1_wf : GatherDims.WF S16 S11008x4096x1 S11008x4096 [] [0] [] [0] [] 2 ![1]
  gather_S16_S4096x11008x1_S4096x11008_n_0_n_n_0_2_1_wf : GatherDims.WF S16 S4096x11008x1 S4096x11008 [] [0] [] [0] [] 2 ![1]
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def gather_S16_S11008x4096x1_S11008x4096_n_0_n_n_0_2_1 : GatherDims S16 S11008x4096x1 S11008x4096 where
  offsetDims := []
  collapsedSliceDims := [0]
  operandBatchingDims := []
  startIndicesBatchingDims := []
  startIndexMap := [0]
  indexVectorDim := 2
  sliceSizes := ![1]
  wf := gather_S16_S11008x4096x1_S11008x4096_n_0_n_n_0_2_1_wf
def gather_S16_S4096x11008x1_S4096x11008_n_0_n_n_0_2_1 : GatherDims S16 S4096x11008x1 S4096x11008 where
  offsetDims := []
  collapsedSliceDims := [0]
  operandBatchingDims := []
  startIndicesBatchingDims := []
  startIndexMap := [0]
  indexVectorDim := 2
  sliceSizes := ![1]
  wf := gather_S16_S4096x11008x1_S4096x11008_n_0_n_n_0_2_1_wf
def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.Spec.lean ====
/-
  The function both programs compute, stated once over the extended reals and over literal extents.

  A weight matrix is stored as 4-bit codes into a sixteen-entry code book with one scale per block of 64
  consecutive columns: entry (r, k) of the dequantized matrix is  book(code r k) · scale r (k / 64).
  The layer is a gated feed-forward block.  With X the 4096 rows of activations (batch-major),
      g r j = Σ_k X r k · W1 j k,      u r j = Σ_k X r k · W3 j k,
      h r j = (g r j · σ(g r j)) · u r j          with σ t = 1 / (1 + e^(−t)),
      out r d = Σ_j h r j · W2 d j,
  and the result at (b, s, d) is out (2048·b + s) d.

  The code book is written as the chain of sixteen selects "if the code is k then book k else what the
  entries before k gave", starting from zero: on the codes 0 … 15 it is the table lookup, and a word that is
  none of them reads zero.
-/
import Idealize.ShloMosaic.PureOps.Ideal
import Idealize.ShloMosaic.PureOps.Ideal.Laws
import Idealize.ShloMosaic.Lib.ValueIdx

noncomputable section

namespace Cert.Nf4Mlp

open Idealize.ShloMosaic Idealize.ShloMosaic.ValueIdx

/-- The code book as sixteen nested selects: entry 15 is tested last, so it binds first when read from the outside;
    a word outside 0 … 15 falls through every test to zero. -/
def book {F : FTy → Type} [FloatOps F] (c : BitVec 32) : F .f32 :=
  (Scalar.select (IntOp.cmpi .eq c 15#32) (Scalar.ofBits .f32 0x3F800000#32)
    (Scalar.select (IntOp.cmpi .eq c 14#32) (Scalar.ofBits .f32 0x3F32F144#32)
    (Scalar.select (IntOp.cmpi .eq c 13#32) (Scalar.ofBits .f32 0x3F1007AB#32)
    (Scalar.select (IntOp.cmpi .eq c 12#32) (Scalar.ofBits .f32 0x3EE1A4B8#32)
    (Scalar.select (IntOp.cmpi .eq c 11#32) (Scalar.ofBits .f32 0x3EAD033A#32)
    (Scalar.select (IntOp.cmpi .eq c 10#32) (Scalar.ofBits .f32 0x3E7C04DD#32)
    (Scalar.select (IntOp.cmpi .eq c 9#32) (Scalar.ofBits .f32 0x3E24CAE3#32)
    (Scalar.select (IntOp.cmpi .eq c 8#32) (Scalar.ofBits .f32 0x3DA2FAFF#32)
    (Scalar.select (IntOp.cmpi .eq c 7#32) (Scalar.ofBits .f32 0x00000000#32)
    (Scalar.select (IntOp.cmpi .eq c 6#32) (Scalar.ofBits .f32 0xBDBA7871#32)
    (Scalar.select (IntOp.cmpi .eq c 5#32) (Scalar.ofBits .f32 0xBE3D353F#32)
    (Scalar.select (IntOp.cmpi .eq c 4#32) (Scalar.ofBits .f32 0xBE91A24D#32)
    (Scalar.select (IntOp.cmpi .eq c 3#32) (Scalar.ofBits .f32 0xBECA32A0#32)
    (Scalar.select (IntOp.cmpi .eq c 2#32) (Scalar.ofBits .f32 0xBF066B30#32)
    (Scalar.select (IntOp.cmpi .eq c 1#32) (Scalar.ofBits .f32 0xBF3239B1#32)
    (Scalar.select (IntOp.cmpi .eq c 0#32) (Scalar.ofBits .f32 0xBF800000#32)
    (Scalar.ofBits .f32 0x00000000#32)))))))))))))))))

/-- Entry (r, k) of a dequantized weight of `R` rows and `C` columns whose scales come one per 64 columns
    (`NB` blocks a row): the code book at the code, times the scale of the block that holds column `k`. -/
def deq {R C NB : Nat} (hb : ∀ k : Fin C, k.val / 64 < NB) (codes : IVec ⟨2, ![R, C]⟩ 32)
    (scale : FVec Ideal ⟨2, ![R, NB]⟩ .f32) (r : Fin R) (k : Fin C) : EReal :=
  book (F := Ideal) (codes (ix2 r k)) * scale (ix2 r ⟨k.val / 64, hb k⟩)

/-- The gated hidden activation: `(g · σ(g)) · u` with `g` and `u` the two projections of row `r` onto hidden unit `j`. -/
def gateUp {M K N : Nat} (X : Fin M → Fin K → EReal) (W1 W3 : Fin N → Fin K → EReal) (r : Fin M) (j : Fin N) : EReal :=
  (∑ k : Fin K, X r k * W1 j k) * Ideal.logistic (∑ k : Fin K, X r k * W1 j k) * (∑ k : Fin K, X r k * W3 j k)

/-- The down projection: row `r` of the hidden activations against row `d` of the third weight. -/
def down {M N D : Nat} (H : Fin M → Fin N → EReal) (W2 : Fin D → Fin N → EReal) (r : Fin M) (d : Fin D) : EReal :=
  ∑ j : Fin N, H r j * W2 d j

theorem blk4096 (k : Fin 4096) : k.val / 64 < 64 := by have := k.isLt; omega
theorem blk11008 (k : Fin 11008) : k.val / 64 < 172 := by have := k.isLt; omega

/-- The activations as 4096 rows: row `r` is batch `r / 2048`, position `r % 2048`. -/
def rows (x : FVec Ideal ⟨3, ![2, 2048, 4096]⟩ .f32) (r : Fin 4096) (k : Fin 4096) : EReal :=
  x (ix3 ⟨r.val / 2048, by have := r.isLt; omega⟩ ⟨r.val % 2048, Nat.mod_lt _ (by decide)⟩ k)

/-- Row `2048·b + s` of the activations is position `s` of batch `b`. -/
theorem rows_apply (x : FVec Ideal ⟨3, ![2, 2048, 4096]⟩ .f32) (b : Fin 2) (s : Fin 2048) (k : Fin 4096)
    (h : b.val * 2048 + s.val < 4096) : rows x ⟨b.val * 2048 + s.val, h⟩ k = x (ix3 b s k) := by
  unfold rows
  congr 1
  have hb := b.isLt; have hs := s.isLt
  refine congrArg₂ (fun (p : Fin 2) (q : Fin 2048) => ix3 p q k) (Fin.ext ?_) (Fin.ext ?_)
  · show (b.val * 2048 + s.val) / 2048 = b.val; omega
  · show (b.val * 2048 + s.val) % 2048 = s.val; omega

section Layer
variable (x : FVec Ideal ⟨3, ![2, 2048, 4096]⟩ .f32)
  (c1 : IVec ⟨2, ![11008, 4096]⟩ 32) (a1 : FVec Ideal ⟨2, ![11008, 64]⟩ .f32)
  (c2 : IVec ⟨2, ![4096, 11008]⟩ 32) (a2 : FVec Ideal ⟨2, ![4096, 172]⟩ .f32)
  (c3 : IVec ⟨2, ![11008, 4096]⟩ 32) (a3 : FVec Ideal ⟨2, ![11008, 64]⟩ .f32)

/-- The hidden activations of the layer, 4096 rows by 11008 hidden units. -/
def hidden : Fin 4096 → Fin 11008 → EReal := gateUp (rows x) (deq blk4096 c1 a1) (deq blk4096 c3 a3)

/-- The layer's output as 4096 rows by 4096 features. -/
def out2 : Fin 4096 → Fin 4096 → EReal := down (hidden x c1 a1 c3 a3) (deq blk11008 c2 a2)

/-- The output at batch `b`, position `s`, feature `d`. -/
def resultAt (b : Fin 2) (s : Fin 2048) (d : Fin 4096) : EReal :=
  out2 x c1 a1 c2 a2 c3 a3 ⟨b.val * 2048 + s.val, by have := b.isLt; have := s.isLt; omega⟩ d

/-- The layer's result array, in the argument order of the two programs: activations, then codes and scales of the
    first, second (down) and third weight. -/
def result : FVec Ideal ⟨3, ![2, 2048, 4096]⟩ .f32 := fun i => resultAt x c1 a1 c2 a2 c3 a3 (i 0) (i 1) (i 2)

theorem result_apply (b : Fin 2) (s : Fin 2048) (d : Fin 4096) :
    result x c1 a1 c2 a2 c3 a3 (ix3 b s d) = resultAt x c1 a1 c2 a2 c3 a3 b s d := rfl

end Layer

end Cert.Nf4Mlp

end
-- ==== Proof.LibDotNT.lean ====
/-
  A contraction of two matrices along their SECOND axes (every row of the left operand against every row of the right
  one, A·Bᵀ) as a plain sum over the shared extent.

  A dot's dimension record names the operand indices at an output index and a contraction index by terms that arithmetic
  does not see through.  For a record over [M, K] × [N, K] → [M, N] whose operand indices have the four coordinates one
  expects — the left operand reads (row of the output, contraction position), the right operand (column of the output,
  contraction position); on a literal record each of the four is closed by `rfl` — the sum over the record's contraction
  indices is the sum over `Fin K` of left (p, n) · right (q, n).
-/
import Idealize.ShloMosaic.PureOps.Ideal.Laws
import Idealize.ShloMosaic.Lib.ValueIdx

noncomputable section

namespace Cert.LibDotNT

open Idealize.ShloMosaic Idealize.ShloMosaic.ValueIdx

/-- The contraction of an [M, K] operand with an [N, K] operand along their second axes, read at output (p, q):
    re-indexed from the record's one-axis contraction shape to `Fin K`. -/
theorem sum_contr_rows {M K N : Nat} {β : Type} [AddCommMonoid β]
    (D : DotDims ⟨2, ![M, K]⟩ ⟨2, ![N, K]⟩ ⟨2, ![M, N]⟩) (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (f : (⟨2, ![M, K]⟩ : Shape).Idx → (⟨2, ![N, K]⟩ : Shape).Idx → β) (p : Fin M) (q : Fin N) :
    ∑ k : D.contr.Idx, f (D.lhsIdx (ix2 p q) k) (D.rhsIdx (ix2 p q) k) = ∑ n : Fin K, f (ix2 p n) (ix2 q n) := by
  rw [← Equiv.sum_comp (contrEquiv1 D K hr hs).symm]
  refine Finset.sum_congr rfl fun n _ => ?_
  have e := contrEquiv1_symm_val D K hr hs n
  have hA : D.lhsIdx (ix2 p q) ((contrEquiv1 D K hr hs).symm n) = ix2 p n := by
    funext a; refine Fin.ext ?_
    match a with
    | ⟨0, _⟩ => exact hl0 _ _
    | ⟨1, _⟩ => exact (hl1 _ _).trans e
  have hB : D.rhsIdx (ix2 p q) ((contrEquiv1 D K hr hs).symm n) = ix2 q n := by
    funext a; refine Fin.ext ?_
    match a with
    | ⟨0, _⟩ => exact hr0 _ _
    | ⟨1, _⟩ => exact (hr1 _ _).trans e
  rw [hA, hB]

end Cert.LibDotNT

end
-- ==== Proof.GateUpBody.lean ====
/-
  What one grid point of the first kernel computes, entry by entry.

  The point holds a block of 512 activation rows (all 4096 features), and for 256 hidden units the codes and block
  scales of the first and of the third weight.  It dequantizes both weight blocks — the code book at the code, by the
  chain of sixteen selects, times the scale of the block of 64 columns, which the body spreads over the row by a
  reshape to [256, 64, 1], a broadcast to [256, 64, 64] and a reshape back to [256, 4096] —, contracts the activation
  rows with each along the feature axis, and stores  (g · σ(g)) · u.  Changes of float format are the identity over
  the extended reals, the matrix product into a zero accumulator is the plain sum, and the logistic function is
  1 / (1 + e^(−g)).  So entry (p, q) of the stored block is the specification's gated product of activation row p with
  rows q of the two dequantized weight blocks.
-/
import proofs.«412991_j45621142618737_1_alg».proof.Proof.Gen.KernelIdeal.Skeleton
import proofs.«412991_j45621142618737_1_alg».proof.Proof.Spec
import proofs.«412991_j45621142618737_1_alg».proof.Proof.LibDotNT
import Idealize.ShloMosaic.Lib.Pipeline.Value
import Idealize.ShloMosaic.Lib.ValueIdx
import Idealize.ShloMosaic.PureOps.Ideal.Laws

noncomputable section

namespace Cert.KernelVal

open Idealize.ShloMosaic Idealize.ShloMosaic.ValueIdx Cert.KernelIdeal Cert.KernelIdeal.Gen Cert.Nf4Mlp

/-- A [256, 64] array of block scales spread over [256, 4096]: column k reads the scale of block k / 64. -/
theorem spread4096_apply (s : Vec Ideal S256x64 .f32) (j : Fin 256) (k : Fin 4096) :
    (shapeCast S256x4096 (broadcastTo S256x64x64 (shapeCast S256x64x1 (shapeCast S256x64x1 s shapeCasts_S256x64_S256x64x1)
        shapeCasts_S256x64x1_S256x64x1) broadcasts_S256x64x1_S256x64x64) shapeCasts_S256x64x64_S256x4096 : FVec Ideal S256x4096 .f32) (ix2 j k)
      = s (ix2 j ⟨k.val / 64, blk4096 k⟩) := by
  have hk := k.isLt
  -- [256, 4096] from [256, 64, 64]: column k is block k / 64, position k % 64
  refine (shapeCast_apply _ _ (ix2 j k) (ix3 j ⟨k.val / 64, blk4096 k⟩ ⟨k.val % 64, Nat.mod_lt _ (by decide)⟩) ?_).trans ?_
  · rw [Shape.rowMajor_val_three, Shape.rowMajor_val_two]
    show (j.val * 64 + k.val / 64) * 64 + k.val % 64 = j.val * 4096 + k.val
    omega
  -- the broadcast along the last axis forgets the position inside the block
  refine (broadcastTo_apply _ _ _ (ix3 j ⟨k.val / 64, blk4096 k⟩ (0 : Fin 1)) ?_).trans ?_
  · intro a
    match a with
    | ⟨0, _⟩ => rfl
    | ⟨1, _⟩ => rfl
    | ⟨2, _⟩ => rfl
  rw [shapeCast_self]
  -- [256, 64, 1] from [256, 64]: the unit axis adds nothing to the position
  refine shapeCast_apply _ _ _ (ix2 j ⟨k.val / 64, blk4096 k⟩) ?_
  rw [Shape.rowMajor_val_three, Shape.rowMajor_val_two]
  show j.val * 64 + k.val / 64 = (j.val * 64 + k.val / 64) * 1 + 0
  omega

/-- The first weight's block, dequantized by the body: the code book at the code times the spread scale. -/
theorem weight1_apply (c : Vec Ideal S256x4096 .i32) (s : Vec Ideal S256x64 .f32) (j : Fin 256) (k : Fin 4096) :
    k0_pay4 (F := Ideal) c s (k0_pay2 c) (k0_pay3 c) (Scalar.ofBits .f32 0x00000000#32) (ix2 j k)
      = book (F := Ideal) (c (ix2 j k)) * s (ix2 j ⟨k.val / 64, blk4096 k⟩) := by
  refine Eq.trans (b := book (F := Ideal) (c (ix2 j k)) * (shapeCast S256x4096 (broadcastTo S256x64x64 (shapeCast S256x64x1
    (shapeCast S256x64x1 s shapeCasts_S256x64_S256x64x1) shapeCasts_S256x64x1_S256x64x1) broadcasts_S256x64x1_S256x64x64)
    shapeCasts_S256x64x64_S256x4096 : FVec Ideal S256x4096 .f32) (ix2 j k)) rfl ?_
  rw [spread4096_apply]

/-- The contraction record of the point's two matrix products. -/
abbrev dotA := dot_S512x4096_S256x4096_S512x256_1_1_0_0_n_n

theorem dotA_lhs0 (j : S512x256.Idx) (k : dotA.contr.Idx) : (dotA.lhsIdx j k 0).val = (j 0).val := rfl
theorem dotA_lhs1 (j : S512x256.Idx) (k : dotA.contr.Idx) : (dotA.lhsIdx j k 1).val = (k ⟨0, by decide⟩).val := rfl
theorem dotA_rhs0 (j : S512x256.Idx) (k : dotA.contr.Idx) : (dotA.rhsIdx j k 0).val = (j 1).val := rfl
theorem dotA_rhs1 (j : S512x256.Idx) (k : dotA.contr.Idx) : (dotA.rhsIdx j k 1).val = (k ⟨0, by decide⟩).val := rfl

/-- A product of a [512, 4096] block with a [256, 4096] block along the feature axis, into a zero accumulator, at (p, q):
    the sum over the 4096 features of the two rows' products. -/
theorem matmulA_apply (a : FVec Ideal S512x4096 .bf16) (b : FVec Ideal S256x4096 .bf16) (p : Fin 512) (q : Fin 256) :
    matmul dotA none a b (constant S512x256 .f32 0x00000000#32) (ix2 p q) = ∑ n : Fin 4096, a (ix2 p n) * b (ix2 q n) := by
  simp only [matmul]
  rw [Ideal.matmul_constant_zero_apply]
  exact Cert.LibDotNT.sum_contr_rows dotA rfl rfl dotA_lhs0 dotA_lhs1 dotA_rhs0 dotA_rhs1 (fun i i' => a i * b i') p q

/-- THE BODY AT AN ENTRY.  From the five loaded blocks — activations `x`, codes and scales of the first weight, codes and
    scales of the third — entry (p, q) of what the point stores is the gated product of row p of `x` with rows q of
    the two dequantized blocks. -/
theorem gateUp_body (x : Vec Ideal S512x4096 .bf16) (c1 : Vec Ideal S256x4096 .i32) (s1 : Vec Ideal S256x64 .f32)
    (c3 : Vec Ideal S256x4096 .i32) (s3 : Vec Ideal S256x64 .f32) (p : Fin 512) (q : Fin 256) :
    k0_pay7 (F := Ideal) (k0_pay1 x) (k0_pay4 c1 s1 (k0_pay2 c1) (k0_pay3 c1) (Scalar.ofBits .f32 0x00000000#32)) c3 s3 (k0_pay5 c3) k0_pay6 (ix2 p q)
      = gateUp (fun r k => x (ix2 r k))
          (fun j k => book (F := Ideal) (c1 (ix2 j k)) * s1 (ix2 j ⟨k.val / 64, blk4096 k⟩))
          (fun j k => book (F := Ideal) (c3 (ix2 j k)) * s3 (ix2 j ⟨k.val / 64, blk4096 k⟩)) p q := by
  -- the third weight's block inside the last payload, as the first's: the select chain is the code book
  have w3 : ∀ (j : Fin 256) (k : Fin 4096),
      k0_pay4 (F := Ideal) c3 s3 (k0_pay2 c3) (k0_pay3 c3) (Scalar.ofBits .f32 0x00000000#32) (ix2 j k)
        = book (F := Ideal) (c3 (ix2 j k)) * s3 (ix2 j ⟨k.val / 64, blk4096 k⟩) := weight1_apply c3 s3
  -- the stored entry is (g · σ(g)) · u over the two products
  refine Eq.trans (b :=
    (matmul dotA none (k0_pay1 x) (k0_pay4 c1 s1 (k0_pay2 c1) (k0_pay3 c1) (Scalar.ofBits .f32 0x00000000#32)) (constant S512x256 .f32 0x00000000#32) (ix2 p q)
      * Ideal.logistic (matmul dotA none (k0_pay1 x) (k0_pay4 c1 s1 (k0_pay2 c1) (k0_pay3 c1) (Scalar.ofBits .f32 0x00000000#32)) (constant S512x256 .f32 0x00000000#32) (ix2 p q)))
      * matmul dotA none (k0_pay1 x) (k0_pay4 c3 s3 (k0_pay2 c3) (k0_pay3 c3) (Scalar.ofBits .f32 0x00000000#32)) (constant S512x256 .f32 0x00000000#32) (ix2 p q)) rfl ?_
  rw [matmulA_apply, matmulA_apply]
  unfold gateUp
  -- the activations' reshape to their own shape changes nothing
  have hx : k0_pay1 (F := Ideal) x = x := shapeCast_self x _
  simp only [hx, weight1_apply, w3]

end Cert.KernelVal

end
-- ==== Proof.GateUpValue.lean ====
/-
  The first kernel's output ARRAY after its region: the hidden activations, one whole-array function of the five arrays
  the region reads.

  The grid has 43 × 8 points; point (j, i) holds activation rows 512·i … 512·i + 511 and hidden units 256·j … 256·j + 255,
  reads the codes and scales of those hidden units' rows of the first and the third weight (whole rows: block index 0
  along the feature axis), and writes back block (i, j) of the [4096, 11008] output.  What it writes back is, entry by entry,
  the gated product of the body (the module on the body): a function of activation row 512·i + p and weight rows
  256·j + q alone, so it is the block of ONE function of the whole arrays.  The 8 × 43 blocks tile the output, so after
  the region the array IS that function.
-/
import proofs.«412991_j45621142618737_1_alg».proof.Proof.Gen.KernelIdeal.Frame
import proofs.«412991_j45621142618737_1_alg».proof.Proof.GateUpBody

set_option maxRecDepth 16384

noncomputable section

namespace Cert.KernelVal

open Idealize.ShloMosaic Idealize.ShloMosaic.TcCoe Idealize.ShloMosaic.ValueIdx
open Idealize.SL.Sem
open Idealize.ShloMosaic.Pipeline (Dat)
open Cert.KernelIdeal Cert.KernelIdeal.Gen Cert.Nf4Mlp

/-- The gated product depends on one row of each of its three matrices. -/
theorem gateUp_congr {M K N M' N' : Nat} (X : Fin M → Fin K → EReal) (W1 W3 : Fin N → Fin K → EReal)
    (X' : Fin M' → Fin K → EReal) (W1' W3' : Fin N' → Fin K → EReal) (r : Fin M) (j : Fin N) (r' : Fin M') (j' : Fin N')
    (hX : X r = X' r') (h1 : W1 j = W1' j') (h3 : W3 j = W3' j') : gateUp X W1 W3 r j = gateUp X' W1' W3' r' j' := by
  unfold gateUp
  rw [hX, h1, h3]

/-- The hidden activations as a function of the activations (4096 rows), and the codes and scales of the first and third
    weight: entry (r, j) is the gated product of activation row r with rows j of the two dequantized weights. -/
def hiddenArr (X : Vec Ideal S4096x4096 .bf16) (C1 : Vec Ideal S11008x4096 .i32) (A1 : Vec Ideal S11008x64 .f32)
    (C3 : Vec Ideal S11008x4096 .i32) (A3 : Vec Ideal S11008x64 .f32) : Vec Ideal S4096x11008 .bf16 :=
  fun i => gateUp (fun r k => X (ix2 r k)) (deq blk4096 C1 A1) (deq blk4096 C3 A3) (i 0) (i 1)

theorem hz2 : (![0, 0] : Fin 2 → Nat) = fun _ => 0 := funext fun a => by fin_cases a <;> rfl

/-- The printed index maps over the grid: the activations' block index is the output's row-block index, the four weight
    arrays' block index the output's column-block index, every window's second block index is 0, and the output's block
    indices stay below 8 and 43. -/
theorem idxA : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (1 : Fin 2) ∧ win0_4.index t (1 : Fin 2) = 0
    ∧ win0_5.index t (0 : Fin 2) ≤ 7 ∧ win0_5.index t (1 : Fin 2) ≤ 42 :=
  (by decide +kernel : ∀ t : Fin grid0.N, _)

/-- The output's block indices in closed form: point t writes row-block t % 8 and column-block t / 8 (the grid runs the
    column-blocks outermost). -/
theorem idxOutA : ∀ t : Fin cfg0.N, win0_5.index t (0 : Fin 2) = t.val % 8 ∧ win0_5.index t (1 : Fin 2) = t.val / 8 :=
  (by decide +kernel : ∀ t : Fin grid0.N, _)

section Region
variable (V : (c : Dev nD) → (b : Ref sig .tc) → Buf (Elt Ideal) ((c : Thread nD τ).loc b))

/-- The five arrays the region reads, as it finds them, at their literal types. -/
abbrev xArr (c : Dev nD) : Vec Ideal S4096x4096 .bf16 := V c main_v1
abbrev c1Arr (c : Dev nD) : Vec Ideal S11008x4096 .i32 := V c main_arg1
abbrev a1Arr (c : Dev nD) : Vec Ideal S11008x64 .f32 := V c main_arg2
abbrev c3Arr (c : Dev nD) : Vec Ideal S11008x4096 .i32 := V c main_arg5
abbrev a3Arr (c : Dev nD) : Vec Ideal S11008x64 .f32 := V c main_arg6

/-- The five blocks a point holds, at their literal types. -/
abbrev xBlk (c : Dev nD) (t : Fin cfg0.N) : Vec Ideal S512x4096 .bf16 := iblk0 V c 0 t
abbrev c1Blk (c : Dev nD) (t : Fin cfg0.N) : Vec Ideal S256x4096 .i32 := iblk0 V c 1 t
abbrev a1Blk (c : Dev nD) (t : Fin cfg0.N) : Vec Ideal S256x64 .f32 := iblk0 V c 2 t
abbrev c3Blk (c : Dev nD) (t : Fin cfg0.N) : Vec Ideal S256x4096 .i32 := iblk0 V c 3 t
abbrev a3Blk (c : Dev nD) (t : Fin cfg0.N) : Vec Ideal S256x64 .f32 := iblk0 V c 4 t

/-- Row p of a point's activation block is row (row-block index)·512 + p of the activations. -/
theorem xBlk_apply (c : Dev nD) (t : Fin cfg0.N) (p : Fin 512) (k : Fin 4096) (P : Fin 4096)
    (hP : P.val = win0_5.index t (0 : Fin 2) * 512 + p.val) : xBlk V c t (ix2 p k) = xArr V c (ix2 P k) := by
  obtain ⟨e00, e01, -⟩ := idxA t
  show V c main_v1 (((cfg0.win 0).blk t).view.emb (ix2 p k)) = V c main_v1 (ix2 P k)
  refine congrArg (V c main_v1) ?_
  funext a; apply Fin.ext
  match a with
  | ⟨0, _⟩ => show win0_0.index t (0 : Fin 2) * 512 + 1 * p.val = P.val; omega
  | ⟨1, _⟩ => show win0_0.index t (1 : Fin 2) * 4096 + 1 * k.val = k.val; omega

/-- Row q of a point's block of the first weight's codes is row (column-block index)·256 + q of the codes. -/
theorem c1Blk_apply (c : Dev nD) (t : Fin cfg0.N) (q : Fin 256) (k : Fin 4096) (Q : Fin 11008)
    (hQ : Q.val = win0_5.index t (1 : Fin 2) * 256 + q.val) : c1Blk V c t (ix2 q k) = c1Arr V c (ix2 Q k) := by
  obtain ⟨-, -, e10, e11, -⟩ := idxA t
  show V c main_arg1 (((cfg0.win 1).blk t).view.emb (ix2 q k)) = V c main_arg1 (ix2 Q k)
  refine congrArg (V c main_arg1) ?_
  funext a; apply Fin.ext
  match a with
  | ⟨0, _⟩ => show win0_1.index t (0 : Fin 2) * 256 + 1 * q.val = Q.val; omega
  | ⟨1, _⟩ => show win0_1.index t (1 : Fin 2) * 4096 + 1 * k.val = k.val; omega

/-- Likewise its scales. -/
theorem a1Blk_apply (c : Dev nD) (t : Fin cfg0.N) (q : Fin 256) (b : Fin 64) (Q : Fin 11008)
    (hQ : Q.val = win0_5.index t (1 : Fin 2) * 256 + q.val) : a1Blk V c t (ix2 q b) = a1Arr V c (ix2 Q b) := by
  obtain ⟨-, -, -, -, e20, e21, -⟩ := idxA t
  show V c main_arg2 (((cfg0.win 2).blk t).view.emb (ix2 q b)) = V c main_arg2 (ix2 Q b)
  refine congrArg (V c main_arg2) ?_
  funext a; apply Fin.ext
  match a with
  | ⟨0, _⟩ => show win0_2.index t (0 : Fin 2) * 256 + 1 * q.val = Q.val; omega
  | ⟨1, _⟩ => show win0_2.index t (1 : Fin 2) * 64 + 1 * b.val = b.val; omega

/-- The third weight's codes. -/
theorem c3Blk_apply (c : Dev nD) (t : Fin cfg0.N) (q : Fin 256) (k : Fin 4096) (Q : Fin 11008)
    (hQ : Q.val = win0_5.index t (1 : Fin 2) * 256 + q.val) : c3Blk V c t (ix2 q k) = c3Arr V c (ix2 Q k) := by
  obtain ⟨-, -, -, -, -, -, e30, e31, -⟩ := idxA t
  show V c main_arg5 (((cfg0.win 3).blk t).view.emb (ix2 q k)) = V c main_arg5 (ix2 Q k)
  refine congrArg (V c main_arg5) ?_
  funext a; apply Fin.ext
  match a with
  | ⟨0, _⟩ => show win0_3.index t (0 : Fin 2) * 256 + 1 * q.val = Q.val; omega
  | ⟨1, _⟩ => show win0_3.index t (1 : Fin 2) * 4096 + 1 * k.val = k.val; omega

/-- And its scales. -/
theorem a3Blk_apply (c : Dev nD) (t : Fin cfg0.N) (q : Fin 256) (b : Fin 64) (Q : Fin 11008)
    (hQ : Q.val = win0_5.index t (1 : Fin 2) * 256 + q.val) : a3Blk V c t (ix2 q b) = a3Arr V c (ix2 Q b) := by
  obtain ⟨-, -, -, -, -, -, -, -, e40, e41, -⟩ := idxA t
  show V c main_arg6 (((cfg0.win 4).blk t).view.emb (ix2 q b)) = V c main_arg6 (ix2 Q b)
  refine congrArg (V c main_arg6) ?_
  funext a; apply Fin.ext
  match a with
  | ⟨0, _⟩ => show win0_4.index t (0 : Fin 2) * 256 + 1 * q.val = Q.val; omega
  | ⟨1, _⟩ => show win0_4.index t (1 : Fin 2) * 64 + 1 * b.val = b.val; omega

/-- WHAT POINT t WRITES BACK is block t of the hidden activations of the arrays as the region finds them. -/
theorem gateUp_flushed (c : Dev nD) (t : Fin cfg0.N) :
    (dat0 V c).flushed 5 t = ((cfg0.win 5).blk t).view.read (Elt Ideal)
      (hiddenArr (xArr V c) (c1Arr V c) (a1Arr V c) (c3Arr V c) (a3Arr V c)) := by
  show (cfg0.win 5).cut (grid0.coords t) ((dat0 V c).after 5 t) = _
  rw [after0_5]
  unfold out0_5
  rw [View.canon_unit_zero hz2]
  simp only [View.ld_unit_zero (S := S512x4096) hz2, View.ld_unit_zero (S := S256x4096) hz2, View.ld_unit_zero (S := S256x64) hz2]
  obtain ⟨-, -, -, -, -, -, -, -, -, -, b0, b1⟩ := idxA t
  funext y
  obtain ⟨p, q, rfl⟩ : ∃ (p : Fin 512) (q : Fin 256), y = ix2 p q := ⟨y 0, y 1, eq_ix2 y⟩
  have hp := p.isLt; have hq := q.isLt
  -- the array index under entry (p, q) of the block
  let P : Fin 4096 := ⟨win0_5.index t (0 : Fin 2) * 512 + p.val, by omega⟩
  let Q : Fin 11008 := ⟨win0_5.index t (1 : Fin 2) * 256 + q.val, by omega⟩
  have hemb : ((cfg0.win 5).blk t).view.emb (ix2 p q) = ix2 P Q := by
    funext a; apply Fin.ext
    match a with
    | ⟨0, _⟩ => show win0_5.index t (0 : Fin 2) * 512 + 1 * p.val = win0_5.index t (0 : Fin 2) * 512 + p.val; omega
    | ⟨1, _⟩ => show win0_5.index t (1 : Fin 2) * 256 + 1 * q.val = win0_5.index t (1 : Fin 2) * 256 + q.val; omega
  show k0_pay7 (F := Ideal) (k0_pay1 (xBlk V c t)) (k0_pay4 (c1Blk V c t) (a1Blk V c t) (k0_pay2 (c1Blk V c t)) (k0_pay3 (c1Blk V c t)) (Scalar.ofBits .f32 0x00000000#32))
      (c3Blk V c t) (a3Blk V c t) (k0_pay5 (c3Blk V c t)) k0_pay6 (ix2 p q)
    = hiddenArr (xArr V c) (c1Arr V c) (a1Arr V c) (c3Arr V c) (a3Arr V c) (((cfg0.win 5).blk t).view.emb (ix2 p q))
  rw [hemb]
  refine (gateUp_body (xBlk V c t) (c1Blk V c t) (a1Blk V c t) (c3Blk V c t) (a3Blk V c t) p q).trans ?_
  show _ = gateUp (fun r k => xArr V c (ix2 r k)) (deq blk4096 (c1Arr V c) (a1Arr V c)) (deq blk4096 (c3Arr V c) (a3Arr V c)) P Q
  refine gateUp_congr _ _ _ _ _ _ p q P Q ?_ ?_ ?_
  · funext k; exact xBlk_apply V c t p k P rfl
  · funext k
    show book (F := Ideal) (c1Blk V c t (ix2 q k)) * a1Blk V c t (ix2 q ⟨k.val / 64, blk4096 k⟩)
      = book (F := Ideal) (c1Arr V c (ix2 Q k)) * a1Arr V c (ix2 Q ⟨k.val / 64, blk4096 k⟩)
    rw [c1Blk_apply V c t q k Q rfl, a1Blk_apply V c t q ⟨k.val / 64, blk4096 k⟩ Q rfl]
  · funext k
    show book (F := Ideal) (c3Blk V c t (ix2 q k)) * a3Blk V c t (ix2 q ⟨k.val / 64, blk4096 k⟩)
      = book (F := Ideal) (c3Arr V c (ix2 Q k)) * a3Arr V c (ix2 Q ⟨k.val / 64, blk4096 k⟩)
    rw [c3Blk_apply V c t q k Q rfl, a3Blk_apply V c t q ⟨k.val / 64, blk4096 k⟩ Q rfl]

/-- An index of the output is in point t's block iff each coordinate is in the block's range on its axis. -/
theorem gateUp_mem_blk (t : Fin cfg0.N) (i : S4096x11008.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v2).slice (win0_5.rect t)).set ↔ _
  rw [View.set_slice_whole, Rect.mem_set_unit]
  exact Iff.rfl

/-- The blocks tile the output: entry (r, j) is in the block of the point whose block indices are (r / 512, j / 256). -/
theorem gateUp_cover (i : S4096x11008.Idx) :
    ∃ t : Fin cfg0.N, (cfg0.win 5).flush t = true ∧ i ∈ ((cfg0.win 5).blk t).view.set := by
  have hi0 : (i 0).val < 4096 := (i 0).isLt
  have hi1 : (i 1).val < 11008 := (i 1).isLt
  have hN : (i 1).val / 256 * 8 + (i 0).val / 512 < cfg0.N := by
    show _ < grid0.N
    rw [N_0]; omega
  obtain ⟨t, ht⟩ : ∃ t : Fin cfg0.N, t.val = (i 1).val / 256 * 8 + (i 0).val / 512 := ⟨⟨_, hN⟩, rfl⟩
  obtain ⟨q0, q1⟩ := idxOutA t
  rw [ht] at q0 q1
  refine ⟨t, flush0_5 t, ?_⟩
  rw [gateUp_mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- THE ARRAY after the region: the hidden activations of the arrays as the region finds them. -/
theorem gateUp_final (c : Dev nD) :
    (dat0 V c).arrAt 5 cfg0.N = hiddenArr (xArr V c) (c1Arr V c) (a1Arr V c) (c3Arr V c) (a3Arr V c) :=
  (dat0 V c).arrAt_eq_of_cover 5 _ (fun t _ => gateUp_flushed V c t) gateUp_cover

end Region

end Cert.KernelVal

end
-- ==== Proof.DownBody.lean ====
/-
  What one grid point of the second kernel computes, entry by entry.

  The point holds a block of 256 rows of hidden activations (all 11008 hidden units), and for 128 output features the
  codes and block scales of the down weight.  It dequantizes the weight block — the code book at the code, by the
  chain of sixteen selects, times the scale of the block of 64 columns, which the body spreads over the row by a
  reshape to [128, 172, 1], a broadcast to [128, 172, 64] and a reshape back to [128, 11008] — and contracts the
  activation rows with it along the hidden axis.  Changes of float format are the identity over the extended reals and
  the matrix product into a zero accumulator is the plain sum.  So entry (p, q) of the stored block is the
  specification's down projection of activation row p onto row q of the dequantized weight block.
-/
import proofs.«412991_j45621142618737_1_alg».proof.Proof.Gen.KernelIdeal.Skeleton
import proofs.«412991_j45621142618737_1_alg».proof.Proof.Spec
import proofs.«412991_j45621142618737_1_alg».proof.Proof.LibDotNT
import Idealize.ShloMosaic.Lib.Pipeline.Value
import Idealize.ShloMosaic.Lib.ValueIdx
import Idealize.ShloMosaic.PureOps.Ideal.Laws

noncomputable section

namespace Cert.KernelVal

open Idealize.ShloMosaic Idealize.ShloMosaic.ValueIdx Cert.KernelIdeal Cert.KernelIdeal.Gen Cert.Nf4Mlp

/-- A [128, 172] array of block scales spread over [128, 11008]: column k reads the scale of block k / 64. -/
theorem spread11008_apply (s : Vec Ideal S128x172 .f32) (j : Fin 128) (k : Fin 11008) :
    (shapeCast S128x11008 (broadcastTo S128x172x64 (shapeCast S128x172x1 (shapeCast S128x172x1 s shapeCasts_S128x172_S128x172x1)
        shapeCasts_S128x172x1_S128x172x1) broadcasts_S128x172x1_S128x172x64) shapeCasts_S128x172x64_S128x11008 : FVec Ideal S128x11008 .f32) (ix2 j k)
      = s (ix2 j ⟨k.val / 64, blk11008 k⟩) := by
  have hk := k.isLt
  -- [128, 11008] from [128, 172, 64]: column k is block k / 64, position k % 64, and 11008 = 172 · 64
  refine (shapeCast_apply _ _ (ix2 j k) (ix3 j ⟨k.val / 64, blk11008 k⟩ ⟨k.val % 64, Nat.mod_lt _ (by decide)⟩) ?_).trans ?_
  · rw [Shape.rowMajor_val_three, Shape.rowMajor_val_two]
    show (j.val * 172 + k.val / 64) * 64 + k.val % 64 = j.val * 11008 + k.val
    omega
  -- the broadcast along the last axis forgets the position inside the block
  refine (broadcastTo_apply _ _ _ (ix3 j ⟨k.val / 64, blk11008 k⟩ (0 : Fin 1)) ?_).trans ?_
  · intro a
    match a with
    | ⟨0, _⟩ => rfl
    | ⟨1, _⟩ => rfl
    | ⟨2, _⟩ => rfl
  rw [shapeCast_self]
  -- [128, 172, 1] from [128, 172]: the unit axis adds nothing to the position
  refine shapeCast_apply _ _ _ (ix2 j ⟨k.val / 64, blk11008 k⟩) ?_
  rw [Shape.rowMajor_val_three, Shape.rowMajor_val_two]
  show j.val * 172 + k.val / 64 = (j.val * 172 + k.val / 64) * 1 + 0
  omega

/-- The contraction record of the point's matrix product. -/
abbrev dotB := dot_S256x11008_S128x11008_S256x128_1_1_0_0_n_n

theorem dotB_lhs0 (j : S256x128.Idx) (k : dotB.contr.Idx) : (dotB.lhsIdx j k 0).val = (j 0).val := rfl
theorem dotB_lhs1 (j : S256x128.Idx) (k : dotB.contr.Idx) : (dotB.lhsIdx j k 1).val = (k ⟨0, by decide⟩).val := rfl
theorem dotB_rhs0 (j : S256x128.Idx) (k : dotB.contr.Idx) : (dotB.rhsIdx j k 0).val = (j 1).val := rfl
theorem dotB_rhs1 (j : S256x128.Idx) (k : dotB.contr.Idx) : (dotB.rhsIdx j k 1).val = (k ⟨0, by decide⟩).val := rfl

/-- A product of a [256, 11008] block with a [128, 11008] block along the hidden axis, into a zero accumulator, at
    (p, q): the sum over the 11008 hidden units of the two rows' products. -/
theorem matmulB_apply (a : FVec Ideal S256x11008 .bf16) (b : FVec Ideal S128x11008 .bf16) (p : Fin 256) (q : Fin 128) :
    matmul dotB none a b (constant S256x128 .f32 0x00000000#32) (ix2 p q) = ∑ n : Fin 11008, a (ix2 p n) * b (ix2 q n) := by
  simp only [matmul]
  rw [Ideal.matmul_constant_zero_apply]
  exact Cert.LibDotNT.sum_contr_rows dotB rfl rfl dotB_lhs0 dotB_lhs1 dotB_rhs0 dotB_rhs1 (fun i i' => a i * b i') p q

/-- THE BODY AT AN ENTRY.  From the three loaded blocks — hidden activations `h`, codes `c` and scales `s` of the down
    weight — entry (p, q) of what the point stores is the down projection of row p of `h` onto row q of the
    dequantized block. -/
theorem down_body (h : Vec Ideal S256x11008 .bf16) (c : Vec Ideal S128x11008 .i32) (s : Vec Ideal S128x172 .f32)
    (p : Fin 256) (q : Fin 128) :
    k1_pay4 (F := Ideal) (k1_pay1 h) c s (k1_pay2 c) (k1_pay3 c) (Scalar.ofBits .f32 0x00000000#32) (ix2 p q)
      = down (fun r j => h (ix2 r j))
          (fun d j => book (F := Ideal) (c (ix2 d j)) * s (ix2 d ⟨j.val / 64, blk11008 j⟩)) p q := by
  -- the weight block inside the payload: the select chain is the code book, the format changes are the identity
  refine Eq.trans (b :=
    matmul dotB none (k1_pay1 h)
      ((fun i => book (F := Ideal) (c i) * (shapeCast S128x11008 (broadcastTo S128x172x64 (shapeCast S128x172x1 (shapeCast S128x172x1 s shapeCasts_S128x172_S128x172x1) shapeCasts_S128x172x1_S128x172x1) broadcasts_S128x172x1_S128x172x64) shapeCasts_S128x172x64_S128x11008 : FVec Ideal S128x11008 .f32) i) : FVec Ideal S128x11008 .bf16)
      (constant S256x128 .f32 0x00000000#32) (ix2 p q)) rfl ?_
  refine (matmulB_apply _ _ p q).trans ?_
  unfold down
  -- the activations' reshape to their own shape changes nothing
  have hh : k1_pay1 (F := Ideal) h = h := shapeCast_self h _
  simp only [hh, spread11008_apply]

end Cert.KernelVal

end
-- ==== Proof.DownValue.lean ====
/-
  The second kernel's output ARRAY after its region: the layer's output rows, one whole-array function of the three
  arrays the region reads.

  The grid has 32 × 16 points; point (j, i) holds hidden-activation rows 256·i … 256·i + 255 (all 11008 hidden units)
  and output features 128·j … 128·j + 127, reads the codes and scales of those features' rows of the down weight (whole
  rows: block index 0 along the hidden axis), and writes back block (i, j) of the [4096, 4096] output.  What it writes
  back is, entry by entry, the down projection of the body (the module on the body): a function of activation row
  256·i + p and weight row 128·j + q alone, so it is the block of ONE function of the whole arrays.  The 16 × 32 blocks
  tile the output, so after the region the array IS that function.
-/
import proofs.«412991_j45621142618737_1_alg».proof.Proof.Gen.KernelIdeal.Frame
import proofs.«412991_j45621142618737_1_alg».proof.Proof.DownBody

set_option maxRecDepth 16384

noncomputable section

namespace Cert.KernelVal

open Idealize.ShloMosaic Idealize.ShloMosaic.TcCoe Idealize.ShloMosaic.ValueIdx
open Idealize.SL.Sem
open Idealize.ShloMosaic.Pipeline (Dat)
open Cert.KernelIdeal Cert.KernelIdeal.Gen Cert.Nf4Mlp

/-- The down projection depends on one row of each of its two matrices. -/
theorem down_congr {M N D M' D' : Nat} (H : Fin M → Fin N → EReal) (W2 : Fin D → Fin N → EReal)
    (H' : Fin M' → Fin N → EReal) (W2' : Fin D' → Fin N → EReal) (r : Fin M) (d : Fin D) (r' : Fin M') (d' : Fin D')
    (hH : H r = H' r') (hW : W2 d = W2' d') : down H W2 r d = down H' W2' r' d' := by
  unfold down
  rw [hH, hW]

/-- The layer's output rows as a function of the hidden activations (4096 rows) and the codes and scales of the down
    weight: entry (r, d) is the down projection of activation row r onto row d of the dequantized weight. -/
def outArr (H : Vec Ideal S4096x11008 .bf16) (C2 : Vec Ideal S4096x11008 .i32) (A2 : Vec Ideal S4096x172 .f32) :
    Vec Ideal S4096x4096 .f32 :=
  fun i => down (fun r j => H (ix2 r j)) (deq blk11008 C2 A2) (i 0) (i 1)

theorem hzB : (![0, 0] : Fin 2 → Nat) = fun _ => 0 := funext fun a => by fin_cases a <;> rfl

/-- The printed index maps over the grid: the activations' block index is the output's row-block index, the two weight
    arrays' block index the output's column-block index, every input window's second block index is 0, and the
    output's block indices stay below 16 and 32. -/
theorem idxB : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = win1_3.index t (1 : Fin 2) ∧ win1_2.index t (1 : Fin 2) = 0
    ∧ win1_3.index t (0 : Fin 2) ≤ 15 ∧ win1_3.index t (1 : Fin 2) ≤ 31 :=
  (by decide +kernel : ∀ t : Fin grid1.N, _)

/-- The output's block indices in closed form: point t writes row-block t % 16 and column-block t / 16 (the grid runs
    the column-blocks outermost). -/
theorem idxOutB : ∀ t : Fin cfg1.N, win1_3.index t (0 : Fin 2) = t.val % 16 ∧ win1_3.index t (1 : Fin 2) = t.val / 16 :=
  (by decide +kernel : ∀ t : Fin grid1.N, _)

section Region
variable (V : (c : Dev nD) → (b : Ref sig .tc) → Buf (Elt Ideal) ((c : Thread nD τ).loc b))

/-- The three arrays the region reads, as it finds them, at their literal types. -/
abbrev hArr (c : Dev nD) : Vec Ideal S4096x11008 .bf16 := V c main_v2
abbrev c2Arr (c : Dev nD) : Vec Ideal S4096x11008 .i32 := V c main_arg3
abbrev a2Arr (c : Dev nD) : Vec Ideal S4096x172 .f32 := V c main_arg4

/-- The three blocks a point holds, at their literal types. -/
abbrev hBlk (c : Dev nD) (t : Fin cfg1.N) : Vec Ideal S256x11008 .bf16 := iblk1 V c 0 t
abbrev c2Blk (c : Dev nD) (t : Fin cfg1.N) : Vec Ideal S128x11008 .i32 := iblk1 V c 1 t
abbrev a2Blk (c : Dev nD) (t : Fin cfg1.N) : Vec Ideal S128x172 .f32 := iblk1 V c 2 t

/-- Row p of a point's activation block is row (row-block index)·256 + p of the hidden activations. -/
theorem hBlk_apply (c : Dev nD) (t : Fin cfg1.N) (p : Fin 256) (k : Fin 11008) (P : Fin 4096)
    (hP : P.val = win1_3.index t (0 : Fin 2) * 256 + p.val) : hBlk V c t (ix2 p k) = hArr V c (ix2 P k) := by
  obtain ⟨e00, e01, -⟩ := idxB t
  show V c main_v2 (((cfg1.win 0).blk t).view.emb (ix2 p k)) = V c main_v2 (ix2 P k)
  refine congrArg (V c main_v2) ?_
  funext a; apply Fin.ext
  match a with
  | ⟨0, _⟩ => show win1_0.index t (0 : Fin 2) * 256 + 1 * p.val = P.val; omega
  | ⟨1, _⟩ => show win1_0.index t (1 : Fin 2) * 11008 + 1 * k.val = k.val; omega

/-- Row q of a point's block of the down weight's codes is row (column-block index)·128 + q of the codes. -/
theorem c2Blk_apply (c : Dev nD) (t : Fin cfg1.N) (q : Fin 128) (k : Fin 11008) (Q : Fin 4096)
    (hQ : Q.val = win1_3.index t (1 : Fin 2) * 128 + q.val) : c2Blk V c t (ix2 q k) = c2Arr V c (ix2 Q k) := by
  obtain ⟨-, -, e10, e11, -⟩ := idxB t
  show V c main_arg3 (((cfg1.win 1).blk t).view.emb (ix2 q k)) = V c main_arg3 (ix2 Q k)
  refine congrArg (V c main_arg3) ?_
  funext a; apply Fin.ext
  match a with
  | ⟨0, _⟩ => show win1_1.index t (0 : Fin 2) * 128 + 1 * q.val = Q.val; omega
  | ⟨1, _⟩ => show win1_1.index t (1 : Fin 2) * 11008 + 1 * k.val = k.val; omega

/-- Likewise its scales. -/
theorem a2Blk_apply (c : Dev nD) (t : Fin cfg1.N) (q : Fin 128) (b : Fin 172) (Q : Fin 4096)
    (hQ : Q.val = win1_3.index t (1 : Fin 2) * 128 + q.val) : a2Blk V c t (ix2 q b) = a2Arr V c (ix2 Q b) := by
  obtain ⟨-, -, -, -, e20, e21, -⟩ := idxB t
  show V c main_arg4 (((cfg1.win 2).blk t).view.emb (ix2 q b)) = V c main_arg4 (ix2 Q b)
  refine congrArg (V c main_arg4) ?_
  funext a; apply Fin.ext
  match a with
  | ⟨0, _⟩ => show win1_2.index t (0 : Fin 2) * 128 + 1 * q.val = Q.val; omega
  | ⟨1, _⟩ => show win1_2.index t (1 : Fin 2) * 172 + 1 * b.val = b.val; omega

/-- WHAT POINT t WRITES BACK is block t of the output rows of the arrays as the region finds them. -/
theorem down_flushed (c : Dev nD) (t : Fin cfg1.N) :
    (dat1 V c).flushed 3 t = ((cfg1.win 3).blk t).view.read (Elt Ideal)
      (outArr (hArr V c) (c2Arr V c) (a2Arr V c)) := by
  show (cfg1.win 3).cut (grid1.coords t) ((dat1 V c).after 3 t) = _
  rw [after1_3]
  unfold out1_3
  rw [View.canon_unit_zero hzB]
  simp only [View.ld_unit_zero (S := S256x11008) hzB, View.ld_unit_zero (S := S128x11008) hzB, View.ld_unit_zero (S := S128x172) hzB]
  obtain ⟨-, -, -, -, -, -, b0, b1⟩ := idxB t
  funext y
  obtain ⟨p, q, rfl⟩ : ∃ (p : Fin 256) (q : Fin 128), y = ix2 p q := ⟨y 0, y 1, eq_ix2 y⟩
  have hp := p.isLt; have hq := q.isLt
  -- the array index under entry (p, q) of the block
  let P : Fin 4096 := ⟨win1_3.index t (0 : Fin 2) * 256 + p.val, by omega⟩
  let Q : Fin 4096 := ⟨win1_3.index t (1 : Fin 2) * 128 + q.val, by omega⟩
  have hemb : ((cfg1.win 3).blk t).view.emb (ix2 p q) = ix2 P Q := by
    funext a; apply Fin.ext
    match a with
    | ⟨0, _⟩ => show win1_3.index t (0 : Fin 2) * 256 + 1 * p.val = win1_3.index t (0 : Fin 2) * 256 + p.val; omega
    | ⟨1, _⟩ => show win1_3.index t (1 : Fin 2) * 128 + 1 * q.val = win1_3.index t (1 : Fin 2) * 128 + q.val; omega
  show k1_pay4 (F := Ideal) (k1_pay1 (hBlk V c t)) (c2Blk V c t) (a2Blk V c t) (k1_pay2 (c2Blk V c t)) (k1_pay3 (c2Blk V c t))
      (Scalar.ofBits .f32 0x00000000#32) (ix2 p q)
    = outArr (hArr V c) (c2Arr V c) (a2Arr V c) (((cfg1.win 3).blk t).view.emb (ix2 p q))
  rw [hemb]
  refine (down_body (hBlk V c t) (c2Blk V c t) (a2Blk V c t) p q).trans ?_
  show _ = down (fun r j => hArr V c (ix2 r j)) (deq blk11008 (c2Arr V c) (a2Arr V c)) P Q
  refine down_congr _ _ _ _ p q P Q ?_ ?_
  · funext k; exact hBlk_apply V c t p k P rfl
  · funext k
    show book (F := Ideal) (c2Blk V c t (ix2 q k)) * a2Blk V c t (ix2 q ⟨k.val / 64, blk11008 k⟩)
      = book (F := Ideal) (c2Arr V c (ix2 Q k)) * a2Arr V c (ix2 Q ⟨k.val / 64, blk11008 k⟩)
    rw [c2Blk_apply V c t q k Q rfl, a2Blk_apply V c t q ⟨k.val / 64, blk11008 k⟩ Q rfl]

/-- An index of the output is in point t's block iff each coordinate is in the block's range on its axis. -/
theorem down_mem_blk (t : Fin cfg1.N) (i : S4096x4096.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v3).slice (win1_3.rect t)).set ↔ _
  rw [View.set_slice_whole, Rect.mem_set_unit]
  exact Iff.rfl

/-- The blocks tile the output: entry (r, d) is in the block of the point whose block indices are (r / 256, d / 128). -/
theorem down_cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : (i 1).val / 128 * 16 + (i 0).val / 256 < cfg1.N := by
    show _ < grid1.N
    rw [N_1]; omega
  obtain ⟨t, ht⟩ : ∃ t : Fin cfg1.N, t.val = (i 1).val / 128 * 16 + (i 0).val / 256 := ⟨⟨_, hN⟩, rfl⟩
  obtain ⟨q0, q1⟩ := idxOutB t
  rw [ht] at q0 q1
  refine ⟨t, flush1_3 t, ?_⟩
  rw [down_mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- THE ARRAY after the region: the output rows of the arrays as the region finds them. -/
theorem down_final (c : Dev nD) :
    (dat1 V c).arrAt 3 cfg1.N = outArr (hArr V c) (c2Arr V c) (a2Arr V c) :=
  (dat1 V c).arrAt_eq_of_cover 3 _ (fun t _ => down_flushed V c t) down_cover

end Region

end Cert.KernelVal

end
-- ==== Proof.KernelValue.lean ====
/-
  The kernel program's result as the specification's function of its seven argument arrays.

  The run ends with the result buffer at the last boundary's contents.  Walking the boundaries back: the last host
  operation reshapes the second kernel's [4096, 4096] output to [2, 2048, 4096]; that output is the down projection of the
  arrays the second region finds — the first kernel's output and the down weight's codes and scales, which nothing
  before has written —; the first kernel's output is the hidden activations of the arrays the first region finds — the
  codes and scales of the first and third weight as launched, and the activations after the two host operations before it,
  a reshape of [2, 2048, 4096] to 4096 rows (row 2048·b + s is position s of batch b) and a change of float format, the
  identity over the extended reals.
-/
import proofs.«412991_j45621142618737_1_alg».proof.Proof.KernelRun
import proofs.«412991_j45621142618737_1_alg».proof.Proof.GateUpValue
import proofs.«412991_j45621142618737_1_alg».proof.Proof.DownValue
import proofs.«412991_j45621142618737_1_alg».proof.Proof.Spec
import Idealize.ShloMosaic.Lib.StableHlo.Run

set_option maxRecDepth 16384

noncomputable section

namespace Cert.KernelVal

open Idealize.ShloMosaic Idealize.ShloMosaic.TcCoe Idealize.ShloMosaic.ValueIdx Idealize.ShloMosaic.Tactic
open Idealize.SL.Sem
open Cert.KernelIdeal Cert.KernelIdeal.Gen Cert.Nf4Mlp

variable (m : (ℓ : Loc nD τ sig) → Buf (Elt Ideal) ℓ) (ρ : Dev nD → PrngReg)

/-- No operation of the first host stretch writes a buffer other than its two results. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))).trans rfl

/-- The activations as the first region finds them: the launch activations reshaped to 4096 rows (the change of float
    format after the reshape is the identity here). -/
theorem V1_x (c : Dev nD) :
    xArr (V1 m ρ) c = truncf (F := Ideal) .bf16 (shapeCast S4096x4096 (m ((c : Thread nD τ).loc main_arg0) : FVec Ideal S2x2048x4096 .f32) shapeCasts_S2x2048x4096_S4096x4096) bitsLt_bf16_f32 := by
  show StableHlo.after hostOps0 (W0 m ρ c) (Proc.devRef .tc main_v1) = _
  after_results
  rfl

/-- Row r, feature k of those activations is the launch activations at batch r / 2048, position r % 2048. -/
theorem V1_x_apply (c : Dev nD) (r k : Fin 4096) :
    xArr (V1 m ρ) c (ix2 r k) = rows (m ((c : Thread nD τ).loc main_arg0)) r k := by
  rw [V1_x]
  have hr := r.isLt
  show shapeCast S4096x4096 (m ((c : Thread nD τ).loc main_arg0) : FVec Ideal S2x2048x4096 .f32) shapeCasts_S2x2048x4096_S4096x4096 (ix2 r k) = _
  unfold rows
  refine shapeCast_apply (s := S2x2048x4096) (t := S4096x4096) _ _ (ix2 r k) _ ?_
  show (S2x2048x4096.rowMajor (ix3 (⟨r.val / 2048, _⟩ : Fin 2) (⟨r.val % 2048, _⟩ : Fin 2048) k)).val = (S4096x4096.rowMajor (ix2 r k)).val
  rw [Shape.rowMajor_val_three, Shape.rowMajor_val_two]
  show ((r.val / 2048) * 2048 + r.val % 2048) * 4096 + k.val = r.val * 4096 + k.val
  omega

/-- THE RESULT BUFFER's final contents are the specification's result of the launch arrays. -/
theorem W4_result (c : Dev nD) :
    W4 m ρ c (Proc.devRef .tc main_v4)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- the last host operation: a reshape of the second kernel's output
  have e4 : W4 m ρ c (Proc.devRef .tc main_v4)
      = shapeCast S2x2048x4096 (W3 m ρ c (Proc.devRef .tc main_v3)) shapeCasts_S4096x4096_S2x2048x4096 := by
    show StableHlo.after hostOps2 (W3 m ρ c) (Proc.devRef .tc main_v4) = _
    after_results
    rfl
  -- the second kernel's output, of the arrays its region finds
  have e3 : W3 m ρ c (Proc.devRef .tc main_v3) = outArr (hArr (V2 m ρ) c) (c2Arr (V2 m ρ) c) (a2Arr (V2 m ρ) c) :=
    (W3_arr m ρ c 3).trans (down_final (V2 m ρ) c)
  -- of which the first is the first kernel's output and the others are as launched
  have eh : hArr (V2 m ρ) c = hiddenArr (xArr (V1 m ρ) c) (c1Arr (V1 m ρ) c) (a1Arr (V1 m ρ) c) (c3Arr (V1 m ρ) c) (a3Arr (V1 m ρ) c) :=
    (W2_arr m ρ c 5).trans (gateUp_final (V1 m ρ) c)
  have ec2 : c2Arr (V2 m ρ) c = m ((c : Thread nD τ).loc main_arg3) :=
    (W2_of_ne m ρ c main_arg3 (by decide)).trans (W1_of_ne m ρ c main_arg3 (by decide) (by decide))
  have ea2 : a2Arr (V2 m ρ) c = m ((c : Thread nD τ).loc main_arg4) :=
    (W2_of_ne m ρ c main_arg4 (by decide)).trans (W1_of_ne m ρ c main_arg4 (by decide) (by decide))
  have ec1 : c1Arr (V1 m ρ) c = m ((c : Thread nD τ).loc main_arg1) := W1_of_ne m ρ c main_arg1 (by decide) (by decide)
  have ea1 : a1Arr (V1 m ρ) c = m ((c : Thread nD τ).loc main_arg2) := W1_of_ne m ρ c main_arg2 (by decide) (by decide)
  have ec3 : c3Arr (V1 m ρ) c = m ((c : Thread nD τ).loc main_arg5) := W1_of_ne m ρ c main_arg5 (by decide) (by decide)
  have ea3 : a3Arr (V1 m ρ) c = m ((c : Thread nD τ).loc main_arg6) := W1_of_ne m ρ c main_arg6 (by decide) (by decide)
  rw [e4, e3, eh, ec2, ea2, ec1, ea1, ec3, ea3]
  funext i
  obtain ⟨b, s, d, rfl⟩ : ∃ (b : Fin 2) (s : Fin 2048) (d : Fin 4096), i = ix3 b s d := ⟨i 0, i 1, i 2, eq_ix3 i⟩
  have hb := b.isLt; have hs := s.isLt
  -- the reshape: entry (b, s, d) is entry (2048·b + s, d) of the [4096, 4096] output
  refine (shapeCast_apply _ _ (ix3 b s d) (ix2 (⟨b.val * 2048 + s.val, by omega⟩ : Fin 4096) d) ?_).trans ?_
  · rw [Shape.rowMajor_val_three, Shape.rowMajor_val_two]
    show (b.val * 2048 + s.val) * 4096 + d.val = (b.val * 2048 + s.val) * 4096 + d.val
    rfl
  rw [result_apply]
  show down (fun r j => hiddenArr (xArr (V1 m ρ) c) (m ((c : Thread nD τ).loc main_arg1)) (m ((c : Thread nD τ).loc main_arg2))
        (m ((c : Thread nD τ).loc main_arg5)) (m ((c : Thread nD τ).loc main_arg6)) (ix2 r j))
      (deq blk11008 (m ((c : Thread nD τ).loc main_arg3)) (m ((c : Thread nD τ).loc main_arg4))) ⟨b.val * 2048 + s.val, _⟩ d
    = down (gateUp (rows (m ((c : Thread nD τ).loc main_arg0))) (deq blk4096 (m ((c : Thread nD τ).loc main_arg1)) (m ((c : Thread nD τ).loc main_arg2)))
        (deq blk4096 (m ((c : Thread nD τ).loc main_arg5)) (m ((c : Thread nD τ).loc main_arg6))))
      (deq blk11008 (m ((c : Thread nD τ).loc main_arg3)) (m ((c : Thread nD τ).loc main_arg4))) ⟨b.val * 2048 + s.val, _⟩ d
  refine congrArg (fun H : Fin 4096 → Fin 11008 → EReal => down H (deq blk11008 (m ((c : Thread nD τ).loc main_arg3)) (m ((c : Thread nD τ).loc main_arg4))) _ d) ?_
  funext r j
  show gateUp (fun r k => xArr (V1 m ρ) c (ix2 r k)) _ _ r j = gateUp (rows (m ((c : Thread nD τ).loc main_arg0))) _ _ r j
  refine congrArg (fun X : Fin 4096 → Fin 4096 → EReal => gateUp X _ _ r j) ?_
  funext r' k
  exact V1_x_apply m ρ c r' k

/-- THE KERNEL PROGRAM'S RUN: every weakly fair execution terminates without a fault, the result buffer ends at the
    specification's result of the argument arrays, and the argument arrays end as launched. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_result m ρ c), (h c).2⟩) (Cert.KernelIdeal.RunV.frame_result m ρ)

end Cert.KernelVal

end
-- ==== Proof.RefTerm.lean ====
/-
  The reference's result as ONE term of its argument arrays, stage by stage in the order the program computes it,
  at any float instance.

  A weight is dequantized in five steps: a negative code is counted from the table's end (code + 16), the code is
  looked up in the sixteen-entry table, the row is cut into blocks of 64 columns, each block is multiplied by
  its scale (the scale array given a third unit axis and stretched along it), and the blocks are laid side by side again.
  The three weights go through the same steps at two pairs of extents ([11008, 4096] with 64 blocks a row, and
  [4096, 11008] with 172).  Then the two projections of the activations, the gate `g · (1 / (1 + e^(−g)))`
  times the other projection, and the down projection.
-/
import proofs.«412991_j45621142618737_1_alg».proof.ReferenceIdeal
import proofs.«412991_j45621142618737_1_alg».proof.Proof.Gen.ReferenceIdeal

noncomputable section

namespace Cert.RefVal

open Idealize.ShloMosaic Cert.ReferenceIdeal Cert.ReferenceIdeal.Facts₀

variable {F : FTy → Type} [FloatOps F]

/-- The table of sixteen code-book values. -/
def table : FVec F S16 .f32 := fun i => FloatOps.ofBits .f32 (lit0 (S16.rowMajor i))

/-- Codes of a [11008, 4096] weight with a negative code counted from the table's end. -/
def wrapA (codes : IVec S11008x4096 32) : IVec S11008x4096 32 :=
  select (cmpi .slt codes (broadcastInDim S11008x4096 ![] bcast_S_S11008x4096 (constantI S_ 32 0#32)))
    (addi codes (broadcastInDim S11008x4096 ![] bcast_S_S11008x4096 (constantI S_ 32 16#32))) codes

/-- The table looked up at every code of a [11008, 4096] weight. -/
def takeA (codes : IVec S11008x4096 32) : FVec F S11008x4096 .f32 :=
  Host.gather gather_S16_S11008x4096x1_S11008x4096_n_0_n_n_0_2_1 (table (F := F))
    (broadcastInDim S11008x4096x1 ![0, 1] bcast_S11008x4096_S11008x4096x1_0_1 (wrapA codes))

/-- A dequantized [11008, 4096] weight: looked-up values in blocks of 64 columns times the block's scale. -/
def deqA (codes : IVec S11008x4096 32) (scale : FVec F S11008x64 .f32) : FVec F S11008x4096 .f32 :=
  shapeCast S11008x4096
    (mulf (shapeCast S11008x64x64 (takeA (F := F) codes) shapeCasts_S11008x4096_S11008x64x64)
      (broadcastInDim S11008x64x64 ![0, 1, 2] bcast_S11008x64x1_S11008x64x64_0_1_2
        (broadcastInDim S11008x64x1 ![0, 1] bcast_S11008x64_S11008x64x1_0_1 scale)))
    shapeCasts_S11008x64x64_S11008x4096

/-- Codes of a [4096, 11008] weight with a negative code counted from the table's end. -/
def wrapB (codes : IVec S4096x11008 32) : IVec S4096x11008 32 :=
  select (cmpi .slt codes (broadcastInDim S4096x11008 ![] bcast_S_S4096x11008 (constantI S_ 32 0#32)))
    (addi codes (broadcastInDim S4096x11008 ![] bcast_S_S4096x11008 (constantI S_ 32 16#32))) codes

/-- The table looked up at every code of a [4096, 11008] weight. -/
def takeB (codes : IVec S4096x11008 32) : FVec F S4096x11008 .f32 :=
  Host.gather gather_S16_S4096x11008x1_S4096x11008_n_0_n_n_0_2_1 (table (F := F))
    (broadcastInDim S4096x11008x1 ![0, 1] bcast_S4096x11008_S4096x11008x1_0_1 (wrapB codes))

/-- A dequantized [4096, 11008] weight. -/
def deqB (codes : IVec S4096x11008 32) (scale : FVec F S4096x172 .f32) : FVec F S4096x11008 .f32 :=
  shapeCast S4096x11008
    (mulf (shapeCast S4096x172x64 (takeB (F := F) codes) shapeCasts_S4096x11008_S4096x172x64)
      (broadcastInDim S4096x172x64 ![0, 1, 2] bcast_S4096x172x1_S4096x172x64_0_1_2
        (broadcastInDim S4096x172x1 ![0, 1] bcast_S4096x172_S4096x172x1_0_1 scale)))
    shapeCasts_S4096x172x64_S4096x11008

/-- `g · (1 / (1 + e^(−g)))`, entry by entry. -/
def gate (g : FVec F S2x2048x11008 .f32) : FVec F S2x2048x11008 .f32 :=
  mulf g (Host.divf (broadcastInDim S2x2048x11008 ![] bcast_S_S2x2048x11008 (constant S_ .f32 0x3F800000#32))
    (addf (broadcastInDim S2x2048x11008 ![] bcast_S_S2x2048x11008 (constant S_ .f32 0x3F800000#32)) (Host.exp (Host.negf g))))

/-- The hidden activations: the gate of the first projection times the third projection. -/
def hiddenRef (x : FVec F S2x2048x4096 .f32) (w1 w3 : FVec F S11008x4096 .f32) : FVec F S2x2048x11008 .f32 :=
  mulf (gate (Host.dotGeneral dot_S2x2048x4096_S11008x4096_S2x2048x11008_2_1_01_0_n_n none x w1))
    (Host.dotGeneral dot_S2x2048x4096_S11008x4096_S2x2048x11008_2_1_01_0_n_n none x w3)

/-- The reference's result of its seven argument arrays (activations; codes and scales of the first, second and third
    weight). -/
def refOut (x : FVec F S2x2048x4096 .f32) (c1 : IVec S11008x4096 32) (a1 : FVec F S11008x64 .f32)
    (c2 : IVec S4096x11008 32) (a2 : FVec F S4096x172 .f32) (c3 : IVec S11008x4096 32) (a3 : FVec F S11008x64 .f32) :
    FVec F S2x2048x4096 .f32 :=
  Host.dotGeneral dot_S2x2048x11008_S4096x11008_S2x2048x4096_2_1_01_0_n_n none
    (hiddenRef x (deqA c1 a1) (deqA c3 a3)) (deqB c2 a2)

end Cert.RefVal

end
-- ==== Proof.RefRun.lean ====
/-
  The reference program's run, written out.

  The reference is a straight line of host operations with one call: the gate `g · (1 / (1 + e^(−g)))` is a function of
  its own in the module, called once on the first projection.  A call means the callee's body on the operands, so the
  program is the list of its own forty-seven operations with the gate's nine in the place of the call, each writing a
  buffer of its own: the sixteen-entry table; then for each of the three weights the fourteen steps that dequantize it
  (zero and sixteen stretched to the weight's extents, the comparison with zero, the sum with sixteen, the choice between
  the two, a unit third axis, the look-up in the table, the cut into blocks of 64 columns, the scales given a unit third
  axis and stretched along it, the product, the blocks laid side by side again), in the order first, third, second weight;
  the first projection; the gate's nine steps (negation, exponential, one stretched, sum, one stretched again, quotient,
  product with the projection); the third projection; the product of the two; the down projection.

  Every buffer ends at the fold of the operations' functions over the contents at launch.  At the result buffer that fold
  is the term `refOut` of the seven argument arrays, each stage's buffer read where the stage's term stands; at an argument
  buffer, which no operation writes, it is the contents at launch.
-/
import proofs.«412991_j45621142618737_1_alg».proof.Proof.RefTerm
import Idealize.ShloMosaic.Lib.StableHlo.Run

noncomputable section

namespace Cert.RefVal

open Idealize.ShloMosaic Idealize.ShloMosaic.TcCoe Idealize.ShloMosaic.StableHlo Idealize.SL.Sem
open Cert.ReferenceIdeal Cert.ReferenceIdeal.Facts₀

variable {F : FTy → Type} [FloatOps F]

/-- The program's fifty-six operations in order, the gate's nine where the call stands (over the call's own buffers, its
    result the buffer the caller reads the gate from). -/
abbrev ops : List (HloOp τ sig (Elt F)) :=
  [ -- the table
    nullary main_cst (fun i => FloatOps.ofBits .f32 (lit0 (S16.rowMajor i))),
    -- the first weight: codes `arg1`, scales `arg2`
    nullary main_c (constantI S_ 32 0#32),
    unary main_c main_v0 (broadcastInDim S11008x4096 ![] bcast_S_S11008x4096),
    binary main_arg1 main_v0 main_v1 (cmpi .slt),
    nullary main_c_0 (constantI S_ 32 16#32),
    unary main_c_0 main_v2 (broadcastInDim S11008x4096 ![] bcast_S_S11008x4096),
    binary main_arg1 main_v2 main_v3 addi,
    ternary main_v1 main_v3 main_arg1 main_v4 select,
    unary main_v4 main_v5 (broadcastInDim S11008x4096x1 ![0, 1] bcast_S11008x4096_S11008x4096x1_0_1),
    binary main_cst main_v5 main_v6 (fun x i => Host.gather gather_S16_S11008x4096x1_S11008x4096_n_0_n_n_0_2_1 x i),
    reshape main_v6 main_v7 rfl shapeCasts_S11008x4096_S11008x64x64,
    unary main_arg2 main_v8 (broadcastInDim S11008x64x1 ![0, 1] bcast_S11008x64_S11008x64x1_0_1),
    unary main_v8 main_v9 (broadcastInDim S11008x64x64 ![0, 1, 2] bcast_S11008x64x1_S11008x64x64_0_1_2),
    binary main_v7 main_v9 main_v10 mulf,
    reshape main_v10 main_v11 rfl shapeCasts_S11008x64x64_S11008x4096,
    -- the third weight: codes `arg5`, scales `arg6`
    nullary main_c_1 (constantI S_ 32 0#32),
    unary main_c_1 main_v12 (broadcastInDim S11008x4096 ![] bcast_S_S11008x4096),
    binary main_arg5 main_v12 main_v13 (cmpi .slt),
    nullary main_c_2 (constantI S_ 32 16#32),
    unary main_c_2 main_v14 (broadcastInDim S11008x4096 ![] bcast_S_S11008x4096),
    binary main_arg5 main_v14 main_v15 addi,
    ternary main_v13 main_v15 main_arg5 main_v16 select,
    unary main_v16 main_v17 (broadcastInDim S11008x4096x1 ![0, 1] bcast_S11008x4096_S11008x4096x1_0_1),
    binary main_cst main_v17 main_v18 (fun x i => Host.gather gather_S16_S11008x4096x1_S11008x4096_n_0_n_n_0_2_1 x i),
    reshape main_v18 main_v19 rfl shapeCasts_S11008x4096_S11008x64x64,
    unary main_arg6 main_v20 (broadcastInDim S11008x64x1 ![0, 1] bcast_S11008x64_S11008x64x1_0_1),
    unary main_v20 main_v21 (broadcastInDim S11008x64x64 ![0, 1, 2] bcast_S11008x64x1_S11008x64x64_0_1_2),
    binary main_v19 main_v21 main_v22 mulf,
    reshape main_v22 main_v23 rfl shapeCasts_S11008x64x64_S11008x4096,
    -- the second weight: codes `arg3`, scales `arg4`
    nullary main_c_3 (constantI S_ 32 0#32),
    unary main_c_3 main_v24 (broadcastInDim S4096x11008 ![] bcast_S_S4096x11008),
    binary main_arg3 main_v24 main_v25 (cmpi .slt),
    nullary main_c_4 (constantI S_ 32 16#32),
    unary main_c_4 main_v26 (broadcastInDim S4096x11008 ![] bcast_S_S4096x11008),
    binary main_arg3 main_v26 main_v27 addi,
    ternary main_v25 main_v27 main_arg3 main_v28 select,
    unary main_v28 main_v29 (broadcastInDim S4096x11008x1 ![0, 1] bcast_S4096x11008_S4096x11008x1_0_1),
    binary main_cst main_v29 main_v30 (fun x i => Host.gather gather_S16_S4096x11008x1_S4096x11008_n_0_n_n_0_2_1 x i),
    reshape main_v30 main_v31 rfl shapeCasts_S4096x11008_S4096x172x64,
    unary main_arg4 main_v32 (broadcastInDim S4096x172x1 ![0, 1] bcast_S4096x172_S4096x172x1_0_1),
    unary main_v32 main_v33 (broadcastInDim S4096x172x64 ![0, 1, 2] bcast_S4096x172x1_S4096x172x64_0_1_2),
    binary main_v31 main_v33 main_v34 mulf,
    reshape main_v34 main_v35 rfl shapeCasts_S4096x172x64_S4096x11008,
    -- the first projection
    binary main_arg0 main_v11 main_v36 (fun l r => Host.dotGeneral dot_S2x2048x4096_S11008x4096_S2x2048x11008_2_1_01_0_n_n none l r),
    -- the gate of it
    TRef.unary (.of main_v36) main_call0.v0 Host.negf,
    TRef.unary main_call0.v0 main_call0.v1 Host.exp,
    TRef.nullary main_call0.cst (constant S_ .f32 0x3F800000#32),
    TRef.unary main_call0.cst main_call0.v2 (broadcastInDim S2x2048x11008 ![] bcast_S_S2x2048x11008),
    TRef.binary main_call0.v2 main_call0.v1 main_call0.v3 addf,
    TRef.nullary main_call0.cst_0 (constant S_ .f32 0x3F800000#32),
    TRef.unary main_call0.cst_0 main_call0.v4 (broadcastInDim S2x2048x11008 ![] bcast_S_S2x2048x11008),
    TRef.binary main_call0.v4 main_call0.v3 main_call0.v5 Host.divf,
    TRef.binary (.of main_v36) main_call0.v5 main_call0.v6 mulf,
    -- the third projection, the hidden activations, the down projection
    binary main_arg0 main_v23 main_v38 (fun l r => Host.dotGeneral dot_S2x2048x4096_S11008x4096_S2x2048x11008_2_1_01_0_n_n none l r),
    binary main_v37 main_v38 main_v39 mulf,
    binary main_v39 main_v35 main_v40 (fun l r => Host.dotGeneral dot_S2x2048x11008_S4096x11008_S2x2048x4096_2_1_01_0_n_n none l r) ]

-- fifty-six binds to re-associate: the rewrite under the chain recurses once per statement
set_option maxRecDepth 2048 in
/-- The program is that line: the gate's definition unfolded at its call and the call's record at its fields, both sides
    are one chain of steps once sequencing is re-associated. -/
theorem main_eq (c : Dev nD) : main (F := F) c = seq ops := by
  simp only [main, fn_silu.body, seq, bind_assoc, pure_bind]
  rfl

/-! ## What the buffers hold at the end -/

attribute [local irreducible] Host.gather Host.divf Host.exp Host.negf in
set_option maxRecDepth 8192 in
set_option maxHeartbeats 400000 in
/-- At the result buffer the fold is `refOut` of the argument buffers' contents: each operation's result read at its own
    buffer is its function of its operands' buffers, at any other buffer what was there, so the result unwinds stage by
    stage — down projection, hidden activations, gate, projections, dequantized weights, looked-up values, wrapped codes —
    to the argument buffers and the constants, which is `refOut`'s own text once its stages are unfolded (a block cut's
    transport along the element type's equality is the identity).  The table look-up and the gate's three host
    functions stay folded: the equation never looks inside them. -/
theorem out_eq (V : Valuation τ sig (Elt F)) :
    after ops V (main_v40 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-! No operation writes an argument buffer: the fold leaves each at its contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

/-! ## The side conditions of the run

The signature scopes no buffer and no semaphore of the TensorCore (every buffer is a tensor value of the program). -/

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore's own references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

/-! ## The run -/

/-- At the compiled mesh, for any float values, from any memory with zero counters: every weakly fair execution of the
    reference terminates, and every final state has the result buffer at `refOut` of the seven arguments' contents at
    launch and every argument buffer as it was. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v40)
            = refOut (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run (defs (F := F)) _ _).mono
    (fun _ h c => ⟨(h c main_v40).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c))⟩)
    (run_seq scopedRefs_eq scopedSems_eq defs main (fun _ => ops) main_eq (fun _ => ops_sub) m ρ)

end Cert.RefVal

end
-- ==== Proof.RefDeq.lean ====
/-
  The reference's dequantized weights read at an entry.

  A weight entry is made in five steps: a negative code is counted from the table's end, the code is looked up in the
  sixteen-entry table, the row is cut into blocks of 64 columns, each block is multiplied by its scale, and the blocks
  are laid side by side again.  For a code c with 0 ≤ c < 16 (as an unsigned word) each step is read at an entry (r, k):
    * c is not negative as a signed word, so the first step leaves it alone;
    * the lookup clamps the signed start index into 0 … 15, which leaves c alone too, and the table's c-th literal is
      what the chain of sixteen selects "if the code is m then the m-th literal" gives at c;
    * column k is place k % 64 of block k / 64, because 64·(k / 64) + k % 64 = k, so cutting, multiplying and joining
      multiplies the entry by the scale of block k / 64.
  Hence the entry is  book(code r k) · scale r (k / 64),  the specification's dequantized weight.
  The lemmas are stated once over the extents R, C = 64·NB and used at [11008, 4096] (64 blocks) and [4096, 11008] (172).
-/
import proofs.«412991_j45621142618737_1_alg».proof.Proof.Spec
import proofs.«412991_j45621142618737_1_alg».proof.Proof.RefTerm
import Idealize.ShloMosaic.Lib.ValueIdx
import Idealize.ShloMosaic.Lib.Pipeline.Value

noncomputable section

namespace Cert.RefVal

open Idealize.ShloMosaic Idealize.ShloMosaic.ValueIdx Cert.ReferenceIdeal

/-! ## Words below 16, and the code book at them -/

/-- A word below 16 is not negative as a signed word: the signed test "code < 0" reads the bit 0. -/
theorem slt_zero_of_lt16 (c : BitVec 32) (h : c.toNat < 16) : IntOp.cmpi .slt c 0#32 = 0#1 := by
  obtain ⟨n, hn, rfl⟩ : ∃ n, n < 16 ∧ c = BitVec.ofNat 32 n := ⟨c.toNat, h, by simp⟩
  interval_cases n <;> rfl

/-- A select on "the word is m" is the if on that equality. -/
theorem select_cmpi_eq {α : Type} (c m : BitVec 32) (a b : α) :
    Scalar.select (IntOp.cmpi .eq c m) a b = if c = m then a else b := by
  unfold Scalar.select IntOp.cmpi
  by_cases h : c = m
  · have hb : (c == m) = true := by simpa using h
    simp [hb, h]
  · have hb : (c == m) = false := by simpa using h
    simp [hb, h]

/-- The chain of sixteen selects at the word n below 16 is the table's n-th literal: every test but the n-th fails. -/
theorem book_eq_lit (n : Nat) (h : n < 16) :
    Cert.Nf4Mlp.book (F := Ideal) (BitVec.ofNat 32 n) = FloatOps.ofBits .f32 (lit0 ⟨n, h⟩) := by
  unfold Cert.Nf4Mlp.book
  simp only [select_cmpi_eq]
  interval_cases n <;> simp only [BitVec.reduceEq, if_true, if_false, ite_true, ite_false] <;> rfl

/-- The table at the entry a word below 16 names is the code book at that word. -/
theorem table_eq_book (c : BitVec 32) (h : c.toNat < 16) :
    table (F := Ideal) (ix1 ⟨c.toNat, h⟩) = Cert.Nf4Mlp.book (F := Ideal) c := by
  have e : S16.rowMajor (ix1 (⟨c.toNat, h⟩ : Fin 16)) = (⟨c.toNat, h⟩ : Fin 16) :=
    Fin.ext (Shape.rowMajor_val_one _)
  have hb : Cert.Nf4Mlp.book (F := Ideal) c = FloatOps.ofBits .f32 (lit0 ⟨c.toNat, h⟩) := by
    have hc : c = BitVec.ofNat 32 c.toNat := by simp
    exact (congrArg (Cert.Nf4Mlp.book (F := Ideal)) hc).trans (book_eq_lit c.toNat h)
  rw [hb]
  show FloatOps.ofBits .f32 (lit0 (S16.rowMajor (ix1 (⟨c.toNat, h⟩ : Fin 16)))) = _
  rw [e]

/-! ## The wrap and the lookup at an entry -/

section Generic
variable {R C : Nat}

/-- Counting a negative code from the table's end leaves a code below 16 as it is. -/
theorem wrap_apply (hz : S_.BroadcastsInDim ⟨2, ![R, C]⟩ (![] : Fin 0 → Fin 2)) (codes : IVec ⟨2, ![R, C]⟩ 32)
    (r : Fin R) (k : Fin C) (h : (codes (ix2 r k)).toNat < 16) :
    select (cmpi .slt codes (broadcastInDim ⟨2, ![R, C]⟩ ![] hz (constantI S_ 32 0#32)))
      (addi codes (broadcastInDim ⟨2, ![R, C]⟩ ![] hz (constantI S_ 32 16#32))) codes (ix2 r k) = codes (ix2 r k) := by
  show Scalar.select (IntOp.cmpi .slt (codes (ix2 r k)) 0#32) _ _ = _
  rw [slt_zero_of_lt16 _ h, select_zero]

/-- The start index of result entry (r, k): the index array with a unit third axis reads the array at (r, k). -/
theorem unitAxis_apply (hb : (⟨2, ![R, C]⟩ : Shape).BroadcastsInDim ⟨3, ![R, C, 1]⟩ (![0, 1] : Fin 2 → Fin 3))
    (idx : IVec ⟨2, ![R, C]⟩ 32) (r : Fin R) (k : Fin C) :
    broadcastInDim ⟨3, ![R, C, 1]⟩ ![0, 1] hb idx (takeIdx (ix2 r k)) = idx (ix2 r k) := by
  refine broadcastInDim_apply _ _ _ _ (ix2 r k) ?_
  intro a
  match a with
  | ⟨0, _⟩ =>
    show r.val = if R = 1 then 0 else r.val
    split
    · have := r.isLt; omega
    · rfl
  | ⟨1, _⟩ =>
    show k.val = if C = 1 then 0 else k.val
    split
    · have := k.isLt; omega
    · rfl

end Generic

section GenericTake
variable {R C : Nat}

/-- The table looked up at an array of codes below 16, read at (r, k): the gather reads the table at the start index
    taken as a signed word and clamped into 0 … 15, which for such a code is the code itself; and the table there is
    the code book. -/
theorem take_apply (wf : GatherDims.WF ⟨1, ![16]⟩ ⟨3, ![R, C, 1]⟩ ⟨2, ![R, C]⟩ [] [0] [] [0] [] 2 ![1])
    (hb : (⟨2, ![R, C]⟩ : Shape).BroadcastsInDim ⟨3, ![R, C, 1]⟩ (![0, 1] : Fin 2 → Fin 3))
    (idx : IVec ⟨2, ![R, C]⟩ 32) (r : Fin R) (k : Fin C) (h : (idx (ix2 r k)).toNat < 16) :
    Host.gather (takeDims 16 R C wf) (table (F := Ideal)) (broadcastInDim ⟨3, ![R, C, 1]⟩ ![0, 1] hb idx) (ix2 r k)
      = Cert.Nf4Mlp.book (F := Ideal) (idx (ix2 r k)) := by
  rw [gather_take_apply (by decide), ← table_eq_book _ h]
  refine congrArg (fun a => table (F := Ideal) (ix1 a)) (Fin.ext ?_)
  show min (broadcastInDim ⟨3, ![R, C, 1]⟩ ![0, 1] hb idx (takeIdx (ix2 r k))).toInt.toNat (16 - 1) = (idx (ix2 r k)).toNat
  rw [unitAxis_apply, BitVec.toInt_eq_toNat_of_lt (by omega)]
  omega

end GenericTake

/-! ## The two lookups at the printed extents -/

theorem wrapA_apply (codes : IVec S11008x4096 32) (r : Fin 11008) (k : Fin 4096)
    (h : (codes (ix2 r k)).toNat < 16) : wrapA codes (ix2 r k) = codes (ix2 r k) :=
  wrap_apply Facts₀.bcast_S_S11008x4096 codes r k h

theorem takeA_apply (codes : IVec S11008x4096 32) (hc : ∀ i, (codes i).toNat < 16) (r : Fin 11008) (k : Fin 4096) :
    takeA (F := Ideal) codes (ix2 r k) = Cert.Nf4Mlp.book (F := Ideal) (codes (ix2 r k)) := by
  have hw := wrapA_apply codes r k (hc _)
  have ht := take_apply Facts₀.gather_S16_S11008x4096x1_S11008x4096_n_0_n_n_0_2_1_wf
    Facts₀.bcast_S11008x4096_S11008x4096x1_0_1 (wrapA codes) r k (by rw [hw]; exact hc _)
  rw [hw] at ht
  exact ht

theorem wrapB_apply (codes : IVec S4096x11008 32) (r : Fin 4096) (k : Fin 11008)
    (h : (codes (ix2 r k)).toNat < 16) : wrapB codes (ix2 r k) = codes (ix2 r k) :=
  wrap_apply Facts₀.bcast_S_S4096x11008 codes r k h

theorem takeB_apply (codes : IVec S4096x11008 32) (hc : ∀ i, (codes i).toNat < 16) (r : Fin 4096) (k : Fin 11008) :
    takeB (F := Ideal) codes (ix2 r k) = Cert.Nf4Mlp.book (F := Ideal) (codes (ix2 r k)) := by
  have hw := wrapB_apply codes r k (hc _)
  have ht := take_apply Facts₀.gather_S16_S4096x11008x1_S4096x11008_n_0_n_n_0_2_1_wf
    Facts₀.bcast_S4096x11008_S4096x11008x1_0_1 (wrapB codes) r k (by rw [hw]; exact hc _)
  rw [hw] at ht
  exact ht

/-! ## Blocks of 64 columns -/

/-- Place k % 64 of block k / 64 of row a, counted row-major over [·, n, 64], is column k of row a counted over
    [·, 64·n]. -/
theorem blockPos (a k c n : Nat) (h : c = n * 64) : (a * n + k / 64) * 64 + k % 64 = a * c + k := by
  subst h
  rw [Nat.add_mul, Nat.mul_assoc]
  omega

section GenericDeq
variable {R C NB : Nat}

/-- The scale array given a unit third axis and stretched along it reads, at block q of row r and any place t in the
    block, the scale of that block. -/
theorem scaleBlocks_apply
    (hb1 : (⟨2, ![R, NB]⟩ : Shape).BroadcastsInDim ⟨3, ![R, NB, 1]⟩ (![0, 1] : Fin 2 → Fin 3))
    (hb2 : (⟨3, ![R, NB, 1]⟩ : Shape).BroadcastsInDim ⟨3, ![R, NB, 64]⟩ (![0, 1, 2] : Fin 3 → Fin 3))
    {α : Type} (scale : (⟨2, ![R, NB]⟩ : Shape).Idx → α) (r : Fin R) (q : Fin NB) (t : Fin 64) :
    broadcastInDim ⟨3, ![R, NB, 64]⟩ ![0, 1, 2] hb2 (broadcastInDim ⟨3, ![R, NB, 1]⟩ ![0, 1] hb1 scale) (ix3 r q t)
      = scale (ix2 r q) := by
  have e2 := broadcastInDim_apply ![0, 1, 2] hb2 (broadcastInDim ⟨3, ![R, NB, 1]⟩ ![0, 1] hb1 scale)
    (ix3 r q t) (ix3 r q (0 : Fin 1)) (by
      intro a
      match a with
      | ⟨0, _⟩ =>
        show r.val = if R = 1 then 0 else r.val
        split
        · have := r.isLt; omega
        · rfl
      | ⟨1, _⟩ =>
        show q.val = if NB = 1 then 0 else q.val
        split
        · have := q.isLt; omega
        · rfl
      | ⟨2, _⟩ =>
        show (0 : Nat) = if (1 : Nat) = 1 then 0 else t.val
        rw [if_pos rfl])
  have e1 := broadcastInDim_apply ![0, 1] hb1 scale (ix3 r q (0 : Fin 1)) (ix2 r q) (by
      intro a
      match a with
      | ⟨0, _⟩ =>
        show r.val = if R = 1 then 0 else r.val
        split
        · have := r.isLt; omega
        · rfl
      | ⟨1, _⟩ =>
        show q.val = if NB = 1 then 0 else q.val
        split
        · have := q.isLt; omega
        · rfl)
  exact e2.trans e1

/-- A row of C = 64·NB values cut into NB blocks of 64, each block multiplied by its scale, and the blocks laid side by
    side again: entry (r, k) is the value at (r, k) times the scale of block k / 64, since column k is place k % 64 of
    block k / 64 and 64·(k / 64) + k % 64 = k. -/
theorem deq_apply (hC : C = NB * 64)
    (h1 : (⟨2, ![R, C]⟩ : Shape).ShapeCasts ⟨3, ![R, NB, 64]⟩) (h2 : (⟨3, ![R, NB, 64]⟩ : Shape).ShapeCasts ⟨2, ![R, C]⟩)
    (hb1 : (⟨2, ![R, NB]⟩ : Shape).BroadcastsInDim ⟨3, ![R, NB, 1]⟩ (![0, 1] : Fin 2 → Fin 3))
    (hb2 : (⟨3, ![R, NB, 1]⟩ : Shape).BroadcastsInDim ⟨3, ![R, NB, 64]⟩ (![0, 1, 2] : Fin 3 → Fin 3))
    (T : FVec Ideal ⟨2, ![R, C]⟩ .f32) (scale : FVec Ideal ⟨2, ![R, NB]⟩ .f32) (r : Fin R) (k : Fin C)
    (hk : k.val / 64 < NB) :
    shapeCast ⟨2, ![R, C]⟩
        (mulf (shapeCast ⟨3, ![R, NB, 64]⟩ T h1)
          (broadcastInDim ⟨3, ![R, NB, 64]⟩ ![0, 1, 2] hb2 (broadcastInDim ⟨3, ![R, NB, 1]⟩ ![0, 1] hb1 scale)))
        h2 (ix2 r k)
      = T (ix2 r k) * scale (ix2 r ⟨k.val / 64, hk⟩) := by
  have hpos : (r.val * NB + k.val / 64) * 64 + k.val % 64 = r.val * C + k.val := blockPos r.val k.val C NB hC
  have eo := shapeCast_apply
    (mulf (shapeCast ⟨3, ![R, NB, 64]⟩ T h1)
      (broadcastInDim ⟨3, ![R, NB, 64]⟩ ![0, 1, 2] hb2 (broadcastInDim ⟨3, ![R, NB, 1]⟩ ![0, 1] hb1 scale)))
    h2 (ix2 r k) (ix3 r ⟨k.val / 64, hk⟩ ⟨k.val % 64, Nat.mod_lt _ (by decide)⟩) (by
      rw [Shape.rowMajor_val_three, Shape.rowMajor_val_two]
      exact hpos)
  have ei := shapeCast_apply T h1 (ix3 r ⟨k.val / 64, hk⟩ ⟨k.val % 64, Nat.mod_lt _ (by decide)⟩) (ix2 r k) (by
      rw [Shape.rowMajor_val_three, Shape.rowMajor_val_two]
      exact hpos.symm)
  rw [eo, mulf_apply, ei, scaleBlocks_apply]

end GenericDeq

/-! ## The two dequantized weights -/

/-- A dequantized [11008, 4096] weight of codes below 16, entry by entry, is the specification's: the code book at the
    code times the scale of the block of 64 columns that holds the entry. -/
theorem deqA_apply (codes : IVec S11008x4096 32) (scale : FVec Ideal S11008x64 .f32) (hc : ∀ i, (codes i).toNat < 16)
    (r : Fin 11008) (k : Fin 4096) :
    deqA (F := Ideal) codes scale (ix2 r k) = Cert.Nf4Mlp.deq Cert.Nf4Mlp.blk4096 codes scale r k := by
  have h := deq_apply (R := 11008) (C := 4096) (NB := 64) rfl Facts₀.shapeCasts_S11008x4096_S11008x64x64
    Facts₀.shapeCasts_S11008x64x64_S11008x4096 Facts₀.bcast_S11008x64_S11008x64x1_0_1
    Facts₀.bcast_S11008x64x1_S11008x64x64_0_1_2 (takeA (F := Ideal) codes) scale r k (Cert.Nf4Mlp.blk4096 k)
  rw [takeA_apply codes hc r k] at h
  unfold deqA Cert.Nf4Mlp.deq
  exact h

/-- The same for a [4096, 11008] weight, 172 blocks a row. -/
theorem deqB_apply (codes : IVec S4096x11008 32) (scale : FVec Ideal S4096x172 .f32) (hc : ∀ i, (codes i).toNat < 16)
    (r : Fin 4096) (k : Fin 11008) :
    deqB (F := Ideal) codes scale (ix2 r k) = Cert.Nf4Mlp.deq Cert.Nf4Mlp.blk11008 codes scale r k := by
  have h := deq_apply (R := 4096) (C := 11008) (NB := 172) rfl Facts₀.shapeCasts_S4096x11008_S4096x172x64
    Facts₀.shapeCasts_S4096x172x64_S4096x11008 Facts₀.bcast_S4096x172_S4096x172x1_0_1
    Facts₀.bcast_S4096x172x1_S4096x172x64_0_1_2 (takeB (F := Ideal) codes) scale r k (Cert.Nf4Mlp.blk11008 k)
  rw [takeB_apply codes hc r k] at h
  unfold deqB Cert.Nf4Mlp.deq
  exact h

end Cert.RefVal

end
-- ==== Proof.RefRead.lean ====
/-
  The reference's result term read at an entry, and identified with the specification.

  With X the activations, and W1, W2, W3 the three dequantized weights (entry by entry the code book at the code times
  the block's scale, for codes 0 … 15), the reference computes, at batch b, position s and feature d,
      g j = Σ_k X (b, s, k) · W1 (j, k),      u j = Σ_k X (b, s, k) · W3 (j, k),
      h j = (g j · (1 / (1 + e^(−g j)))) · u j,
      out = Σ_j h j · W2 (d, j).
  Each contraction is one axis of each operand, so its index set is the range of that axis and the contraction is the plain
  sum over it; 1 / (1 + e^(−t)) is the logistic function σ t by definition; and position s of batch b is row 2048·b + s
  of the activations taken as 4096 rows.  That is the specification's result, the sums compared term by term: only + and ·
  of the same terms in the same order appear on both sides, so no entry needs to be finite.
-/
import proofs.«412991_j45621142618737_1_alg».proof.Proof.RefDeq
import Idealize.ShloMosaic.PureOps.Ideal.Laws

noncomputable section

namespace Cert.RefVal

open Idealize.ShloMosaic Idealize.ShloMosaic.ValueIdx Cert.ReferenceIdeal
open scoped BigOperators

/-! ## A projection read at an entry -/

section GenericDot
variable {B S K N : Nat}

/-- Rows of activations [B, S, K] against the rows of a weight [N, K], contracting the last axis of each: entry (b, s, j)
    is the sum over the contracted coordinate of the products of the two entries. At the ideal values. -/
theorem dotRows_apply {φ₁ φ₂ : FTy}
    (w : DotDims.WF ⟨3, ![B, S, K]⟩ ⟨2, ![N, K]⟩ ⟨3, ![B, S, N]⟩ [2] [1] [0, 1] [0] [] [])
    (prec : Option ContractPrecision) (A : FVec Ideal ⟨3, ![B, S, K]⟩ φ₁) (W : FVec Ideal ⟨2, ![N, K]⟩ φ₂)
    (b : Fin B) (s : Fin S) (j : Fin N) :
    Host.dotGeneral (⟨[2], [1], [0, 1], [0], [], [], w⟩ : DotDims _ _ _) prec A W (ix3 b s j)
      = ∑ c : Fin K, A (ix3 b s c) * W (ix2 j c) := by
  show FloatOps.dotGeneral _ prec _ A W (ix3 b s j) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![B, S, K]⟩ ⟨2, ![N, K]⟩ ⟨3, ![B, S, N]⟩) K rfl rfl c
  have l3 : (⟨[2], [1], [0, 1], [0], [], [], w⟩ : DotDims ⟨3, ![B, S, K]⟩ ⟨2, ![N, K]⟩ ⟨3, ![B, S, N]⟩).lhsIdx (ix3 b s j)
      ((contrEquiv1 _ K rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, S, K]⟩ ⟨2, ![N, K]⟩ ⟨3, ![B, S, N]⟩).rhsIdx (ix3 b s j)
      ((contrEquiv1 _ K rfl rfl).symm c) = ix2 j c := by
    funext ax; apply Fin.ext
    match ax with
    | ⟨0, _⟩ => simp [DotDims.rhsIdx]; rfl
    | ⟨1, _⟩ => simp [DotDims.rhsIdx]; exact c3
  rw [l3, r3]

end GenericDot

/-- The projection of the activations onto the hidden units, at the printed record. -/
theorem projUp_apply (x : FVec Ideal S2x2048x4096 .f32) (w : FVec Ideal S11008x4096 .f32)
    (b : Fin 2) (s : Fin 2048) (j : Fin 11008) :
    Host.dotGeneral dot_S2x2048x4096_S11008x4096_S2x2048x11008_2_1_01_0_n_n none x w (ix3 b s j)
      = ∑ k : Fin 4096, x (ix3 b s k) * w (ix2 j k) :=
  dotRows_apply Facts₀.dot_S2x2048x4096_S11008x4096_S2x2048x11008_2_1_01_0_n_n_wf none x w b s j

/-- The projection of the hidden activations back onto the features, at the printed record. -/
theorem projDown_apply (h : FVec Ideal S2x2048x11008 .f32) (w : FVec Ideal S4096x11008 .f32)
    (b : Fin 2) (s : Fin 2048) (d : Fin 4096) :
    Host.dotGeneral dot_S2x2048x11008_S4096x11008_S2x2048x4096_2_1_01_0_n_n none h w (ix3 b s d)
      = ∑ j : Fin 11008, h (ix3 b s j) * w (ix2 d j) :=
  dotRows_apply Facts₀.dot_S2x2048x11008_S4096x11008_S2x2048x4096_2_1_01_0_n_n_wf none h w b s d

/-! ## The gate and the hidden activations -/

/-- The word 0x3F800000 is the float 1. -/
theorem ofBits_one_f32 : Ideal.ofBits .f32 0x3F800000#32 = 1 := by
  simp [Ideal.ofBits, Ideal.ieee, -EReal.coe_mul]; norm_num

/-- The gate at an entry: g · (1 / (1 + e^(−g))), and 1 / (1 + e^(−g)) is by definition the logistic function of g. -/
theorem gate_apply (g : FVec Ideal S2x2048x11008 .f32) (i : S2x2048x11008.Idx) :
    gate (F := Ideal) g i = g i * Ideal.logistic (g i) := by
  show g i * Ideal.div (Ideal.ofBits .f32 0x3F800000#32) (Ideal.ofBits .f32 0x3F800000#32 + Ideal.exp (-(g i))) = _
  rw [ofBits_one_f32]
  rfl

/-- The hidden activations at (b, s, j): the gate of the first projection times the third projection, each projection
    the sum over the 4096 input features. -/
theorem hiddenRef_apply (x : FVec Ideal S2x2048x4096 .f32) (w1 w3 : FVec Ideal S11008x4096 .f32)
    (b : Fin 2) (s : Fin 2048) (j : Fin 11008) :
    hiddenRef (F := Ideal) x w1 w3 (ix3 b s j)
      = (∑ k : Fin 4096, x (ix3 b s k) * w1 (ix2 j k)) * Ideal.logistic (∑ k : Fin 4096, x (ix3 b s k) * w1 (ix2 j k))
          * (∑ k : Fin 4096, x (ix3 b s k) * w3 (ix2 j k)) := by
  unfold hiddenRef
  rw [mulf_apply, gate_apply, projUp_apply, projUp_apply]

/-! ## The reference's result is the specification's -/

/-- A projection of batch b, position s against a dequantized [11008, 4096] weight of codes below 16 is the
    specification's: row 2048·b + s of the activations against the dequantized row, term by term. -/
theorem projDeq_eq (x : FVec Ideal S2x2048x4096 .f32) (c : IVec S11008x4096 32) (a : FVec Ideal S11008x64 .f32)
    (hc : ∀ i, (c i).toNat < 16) (b : Fin 2) (s : Fin 2048) (j : Fin 11008) (h : b.val * 2048 + s.val < 4096) :
    (∑ k : Fin 4096, x (ix3 b s k) * deqA (F := Ideal) c a (ix2 j k))
      = ∑ k : Fin 4096, Cert.Nf4Mlp.rows x ⟨b.val * 2048 + s.val, h⟩ k * Cert.Nf4Mlp.deq Cert.Nf4Mlp.blk4096 c a j k :=
  Finset.sum_congr rfl fun k _ => by rw [deqA_apply c a hc j k, Cert.Nf4Mlp.rows_apply]

/-- Under the precondition that every code is one of 0 … 15, the reference's result term is the specification's result:
    entry (b, s, d) of both is  Σ_j h_j · W2 d j  with  h_j = (g_j · σ(g_j)) · u_j,  g_j = Σ_k X k · W1 j k  and
    u_j = Σ_k X k · W3 j k  over row 2048·b + s of the activations and the dequantized weights; the sums are compared
    term by term. -/
theorem refOut_eq (x : FVec Ideal S2x2048x4096 .f32) (c1 : IVec S11008x4096 32) (a1 : FVec Ideal S11008x64 .f32)
    (c2 : IVec S4096x11008 32) (a2 : FVec Ideal S4096x172 .f32) (c3 : IVec S11008x4096 32) (a3 : FVec Ideal S11008x64 .f32)
    (h1 : ∀ i, (c1 i).toNat < 16) (h2 : ∀ i, (c2 i).toNat < 16) (h3 : ∀ i, (c3 i).toNat < 16) :
    refOut (F := Ideal) x c1 a1 c2 a2 c3 a3 = Cert.Nf4Mlp.result x c1 a1 c2 a2 c3 a3 := by
  funext i
  obtain ⟨b, s, d, rfl⟩ : ∃ (b : Fin 2) (s : Fin 2048) (d : Fin 4096), i = ix3 b s d := ⟨i 0, i 1, i 2, eq_ix3 i⟩
  rw [Cert.Nf4Mlp.result_apply]
  unfold refOut
  rw [projDown_apply]
  unfold Cert.Nf4Mlp.resultAt Cert.Nf4Mlp.out2 Cert.Nf4Mlp.down
  refine Finset.sum_congr rfl fun j _ => ?_
  rw [deqB_apply c2 a2 h2 d j, hiddenRef_apply, projDeq_eq x c1 a1 h1 b s j, projDeq_eq x c3 a3 h3 b s j]
  rfl

end Cert.RefVal

end
-- ==== Proof.PreDecode.lean ====
/-
  The precondition, read back: "every operand is finite and every code lies in [0, 16)" is printed as one scalar bit,
  the conjunction of seven reductions by `and` over whole arrays. When that bit is one, each reduction is one; a
  reduction by `and` that is one met only ones; and the element a code array contributes at an index is the
  conjunction of two signed comparisons of the code there with the literals 0 and 16. A 32-bit word that is at least 0
  and below 16 as a signed word has an unsigned value below 16. So all three code arrays hold only 0 … 15.
-/
import proofs.«412991_j45621142618737_1_alg».proof.Proof.Gen.Pre_finite_inputs
import Idealize.ShloMosaic.Lib.ReduceAll
import Idealize.ShloMosaic.Lib.ValueIdx

noncomputable section

namespace Cert.PreVal

open Idealize.ShloMosaic Cert.Pre_finite_inputs

/-- The scalar shape has one index: a function out of the empty set of axes. -/
instance subsingleton_scalar_idx : Subsingleton S_.Idx := ⟨fun a b => funext fun d => d.elim0⟩

/-- A 32-bit word w with 0 ≤ w and w < 16, both read signed, has unsigned value below 16: a word whose unsigned value
    is 2³¹ or more reads as a negative integer, which the first comparison excludes; below 2³¹ the two readings agree. -/
theorem toNat_lt_sixteen (w : BitVec 32) (h0 : IntOp.cmpi .sge w 0#32 = 1#1) (h16 : IntOp.cmpi .slt w 16#32 = 1#1) :
    w.toNat < 16 := by
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  rw [BitVec.toInt_eq_toNat_cond] at h0 h16
  have hw := w.isLt
  split at h0 <;> omega

/-- The range test of a code array at one index. The test is the `and` of "code ≥ 0" and "code < 16", each literal a
    scalar constant broadcast to the array's shape, which reads the constant at every index. -/
theorem code_lt {s : Shape} (hb : S_.BroadcastsInDim s (![] : Fin 0 → Fin s.rank)) (c : IVec s 32) (i : s.Idx)
    (h : andi (cmpi .sge c (broadcastInDim s ![] hb (constantI S_ 32 0#32)))
              (cmpi .slt c (broadcastInDim s ![] hb (constantI S_ 32 16#32))) i = 1#1) :
    (c i).toNat < 16 := by
  have h' : IntOp.andi (IntOp.cmpi .sge (c i) 0#32) (IntOp.cmpi .slt (c i) 16#32) = 1#1 := h
  obtain ⟨h0, h16⟩ := IntOp.andi_eq_one.1 h'
  exact toNat_lt_sixteen (c i) h0 h16

/-- An `and` of two scalar bits is one exactly when both are. -/
theorem andi_scalar (a b : IVec S_ 1) (j : S_.Idx) : andi a b j = 1#1 ↔ a j = 1#1 ∧ b j = 1#1 :=
  IntOp.andi_eq_one

/-- A whole-array range test reduced by `and` to a scalar that is one: every code of the array is below 16. -/
theorem codes_of_reduce {s : Shape} {axes : List (Fin s.rank)} (hb : S_.BroadcastsInDim s (![] : Fin 0 → Fin s.rank))
    (hr : s.ReducesTo axes S_) (h1 : 0 < S_.numel) (c : IVec s 32) (j : S_.Idx)
    (h : Host.reduce IntOp.andi
          (andi (cmpi .sge c (broadcastInDim s ![] hb (constantI S_ 32 0#32)))
                (cmpi .slt c (broadcastInDim s ![] hb (constantI S_ 32 16#32))))
          (constantI S_ 1 1#1) hr h1 j = 1#1) :
    ∀ i, (c i).toNat < 16 :=
  fun i => code_lt hb c i (Host.reduce_andi_all _ _ hr h1 j h i)

/-- THE PRECONDITION DECODED: when the printed predicate is one, every code of the three code arrays is one of 0 … 15.
    The predicate is ((((((f₀ ∧ f₁) ∧ f₂) ∧ f₃) ∧ r₁) ∧ r₂) ∧ r₃) with f the four finiteness reductions (not needed
    here) and r₁, r₂, r₃ the range reductions of the three code arrays. -/
theorem codes_of_pre {F : FTy → Type} [FloatOps F]
    (x : FVec F S2x2048x4096 .f32) (c1 : IVec S11008x4096 32) (a1 : FVec F S11008x64 .f32)
    (c2 : IVec S4096x11008 32) (a2 : FVec F S4096x172 .f32) (c3 : IVec S11008x4096 32) (a3 : FVec F S11008x64 .f32)
    (h : Cert.Pre_finite_inputs.fn (F := F) x c1 a1 c2 a2 c3 a3 = fun _ => 1#1) :
    (∀ i, (c1 i).toNat < 16) ∧ (∀ i, (c2 i).toNat < 16) ∧ (∀ i, (c3 i).toNat < 16) := by
  have h0 := congrFun h ValueIdx.ix0
  dsimp only [fn, fn_part1, fn_part2] at h0
  rw [andi_scalar, andi_scalar, andi_scalar] at h0
  obtain ⟨⟨⟨-, r1⟩, r2⟩, r3⟩ := h0
  exact ⟨codes_of_reduce _ _ _ c1 _ r1, codes_of_reduce _ _ _ c2 _ r2, codes_of_reduce _ _ _ c3 _ r3⟩

end Cert.PreVal

end
-- ==== Proof.lean ====
/-
  The certificate's five claims.

  Both programs compute one function of their seven argument arrays (Proof/Spec.lean): a gated feed-forward layer whose
  three weights are stored as 4-bit codes into a sixteen-entry code book with one scale per block of 64 columns,
      out = ((X·W1ᵀ) · σ(X·W1ᵀ) · (X·W3ᵀ)) · W2ᵀ.
  The kernel program runs it as two tiled kernels (gate and up projections with the gate; then the down projection),
  dequantizing each weight block by a chain of sixteen selects; its changes of float format are the identity over the
  extended reals and its tiling only regroups the sums.  The reference dequantizes by a table lookup and contracts whole
  arrays.  The two agree where every code is one of 0 … 15, which the precondition states: outside that range the
  lookup (a negative code counts from the table's end, a large one is clamped) and the selects (which read zero) differ.
  No law beyond the commutative-monoid structure of + and · on each side's own expression is used, so finiteness of the
  float inputs is not needed by the proof.

  The frames of the two kernel programs are the generated ones; the reference's frame is its run with the result
  forgotten; the idealization rewrote nothing, so `preserves` is trivial.
-/
import proofs.«412991_j45621142618737_1_alg».proof.Defs
import proofs.«412991_j45621142618737_1_alg».proof.Proof.Gen.Kernel
import proofs.«412991_j45621142618737_1_alg».proof.Proof.Gen.Kernel.Skeleton
import proofs.«412991_j45621142618737_1_alg».proof.Proof.Gen.Kernel.Launch
import proofs.«412991_j45621142618737_1_alg».proof.Proof.Gen.Kernel.Points
import proofs.«412991_j45621142618737_1_alg».proof.Proof.Gen.Kernel.Frame
import proofs.«412991_j45621142618737_1_alg».proof.Proof.Gen.KernelIdeal
import proofs.«412991_j45621142618737_1_alg».proof.Proof.Gen.KernelIdeal.Skeleton
import proofs.«412991_j45621142618737_1_alg».proof.Proof.Gen.KernelIdeal.Launch
import proofs.«412991_j45621142618737_1_alg».proof.Proof.Gen.KernelIdeal.Points
import proofs.«412991_j45621142618737_1_alg».proof.Proof.Gen.KernelIdeal.Frame
import proofs.«412991_j45621142618737_1_alg».proof.Proof.Gen.ReferenceIdeal
import proofs.«412991_j45621142618737_1_alg».proof.Proof.Gen.Pre_finite_inputs
import proofs.«412991_j45621142618737_1_alg».proof.Proof.KernelValue
import proofs.«412991_j45621142618737_1_alg».proof.Proof.RefRun
import proofs.«412991_j45621142618737_1_alg».proof.Proof.RefRead
import proofs.«412991_j45621142618737_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its run, with what it says of the result dropped. -/
theorem frame_ri : Cert.frame_ReferenceIdeal := fun m ρ _ =>
  (θ_run Cert.ReferenceIdeal.defs _ _).mono (fun _ h c => (h c).2) (Cert.RefVal.run (F := Ideal) m ρ)

/-- The kernel program ends at the specification's result of its arguments; the reference ends at its own term of
    arguments that agree with them, and under the precondition — every code one of 0 … 15 — that term is the
    specification's result too. -/
theorem algebraic : Cert.algebraic_KernelIdeal_ReferenceIdeal := by
  intro m ρ m' ρ' hpre hagree
  refine ⟨_, Cert.KernelVal.run m ρ, ?_⟩
  refine (θ_run Cert.ReferenceIdeal.defs _ _).mono (fun r h c => ⟨(h c).1.trans ?_, (h c).2⟩)
    (Cert.RefVal.run (F := Ideal) m' ρ')
  obtain ⟨e0, e1, e2, e3, e4, e5, e6⟩ := hagree c
  rw [e0, e1, e2, e3, e4, e5, e6]
  obtain ⟨h1, h2, h3⟩ := Cert.PreVal.codes_of_pre _ _ _ _ _ _ _ (hpre c)
  exact Cert.RefVal.refOut_eq _ _ _ _ _ _ _ h1 h2 h3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
